-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S512x256 : Shape := ⟨2, ![512, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S16384x256 .f32) (main_arg1 : FVec F S16384x16384 .f32) (main_arg2 : FVec F S512x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S16384x256 : Shape := ⟨2, ![16384, 256]⟩
abbrev S16384x16384 : Shape := ⟨2, ![16384, 16384]⟩
abbrev S512x256 : Shape := ⟨2, ![512, 256]⟩
abbrev S256x256 : Shape := ⟨2, ![256, 256]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S512x256, .f32⟩
  | .hbm, ⟨3, _⟩ => ⟨S16384x256, .bf16⟩
  | .hbm, ⟨4, _⟩ => ⟨S256x256, .f32⟩
  | .hbm, ⟨5, _⟩ => ⟨S256x256, .bf16⟩
  | .hbm, ⟨6, _⟩ => ⟨S256x256, .f32⟩
  | .hbm, ⟨7, _⟩ => ⟨S256x256, .bf16⟩
  | .hbm, ⟨8, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x256, .bf16⟩
  | .local _ .vmem, ⟨7, _⟩ => ⟨S256x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  slices_S512x256_S256x256_0_0 : S512x256.Slices ![0, 0] S256x256
  slices_S512x256_S256x256_256_0 : S512x256.Slices ![256, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1024x256_S1024 : S1024x256.Reduces [1] S1024
  shapeCasts_S1024_S1024x1 : S1024.ShapeCasts S1024x1
  broadcasts_S1024x1_S1024x256 : S1024x1.Broadcasts S1024x256
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x16384.size a
  hwx0_0 : ∀ i : grid0.Coords, EltTy.bits .f32 = 32 ∨ (Rect.block (s := S16384x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .bf16 = 32 ∨ (Rect.block (s := S16384x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S16384x256.size a
  hwx0_5 : ∀ i : grid0.Coords, EltTy.bits .f32 = 32 ∨ (Rect.block (s := S16384x256) S1024x256.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S512x256 : Shape := ⟨2, ![512, 256]⟩
abbrev S16384x512 : Shape := ⟨2, ![16384, 512]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S512x256, .f32⟩
  | .hbm, ⟨3, _⟩ => ⟨S16384x256, .f32⟩
  | .hbm, ⟨4, _⟩ => ⟨S16384x512, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S_, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x1, .f32⟩
  | .hbm, ⟨19, _⟩ => ⟨S16384x256, .f32⟩
  | .hbm, ⟨20, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  concatenates_S16384x256_S16384x256_S16384x512_d1 : Shape.Concatenates [S16384x256, S16384x256] S16384x512 1
  bcast_S_S16384x256 : S_.BroadcastsInDim S16384x256 (![] : Fin 0 → Fin S16384x256.rank)
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  dot_S16384x16384_S16384x256_S16384x256_1_0_0_1_n_n_wf : DotDims.WF S16384x16384 S16384x256 S16384x256 [1] [0] [0] [1] [] []
  dot_S16384x512_S512x256_S16384x256_1_0_0_1_n_n_wf : DotDims.WF S16384x512 S512x256 S16384x256 [1] [0] [0] [1] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.LibSharedLaunch.lean ====
/-
  The run of a one-call TensorCore program whose pipelined call reads ONE array through SEVERAL input windows (a packed
  weight read as three column groups): the frame run of the pipeline library, with the arrays' distinctness replaced by
  the certificate's own account of how each shared array's full share is dealt among the windows on it.
-/
import Idealize.ShloMosaic.Lib.Pipeline.Frame

noncomputable section

namespace Idealize.ShloMosaic.Pipeline

open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {nD : Nat} {τ : Topo} {sig : RefSig} {Val : EltTy → Type} [∀ e, Nonempty (Val e)]
variable {Λ₀ : SL.Sem.Labels} {P : Type} [Fintype P] [DecidableEq P]

/-- THE FRAME RUN WHEN WINDOWS SHARE AN ARRAY. As the library's frame run with a tracking invariant
    (`θ_run_frame_track`), except that the windows' arrays need not be distinct (`WinFacts₀`) and, in place of "every
    array is held at the full share", the certificate shows how the distinct buffers behind the arrays, each whole at
    the full share at the entry contents (`arrBufs`), make up the proof data's `arrays` at entry (`hsplit`): a buffer
    read through several input windows is split among them, each window at the share the proof data names for it.
    Concludes the same post: every window's array at what the library computes from the proof data after all
    write-backs, every other unscoped buffer as the call found it. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp (MT nD τ sig Unit Val ℕ (UR sig nD τ) ℕ))
        ⊢ (dats p c).arrays ((dats p c).arrAt · 0))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp (MT nD τ sig Unit Val ℕ (UR sig nD τ) ℕ)) ⊢ BI.own (emb₁ (initOf (cells cfgs hinj) (launchToks cfgs hinj))) from .rfl); iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end Idealize.ShloMosaic.Pipeline

end
-- ==== Proof.KernelCallSite.lean ====
/-
  The program up to its one pipelined call, and the call's geometry.

  Before the call the program casts x to the narrower format and cuts w into its two [256, 256] halves (each then
  cast). The call runs a 16 x 16 grid, point t = 16 * (row tile) + (column tile); each window's block at a point is a
  rectangle of the array the call finds. The body resets its running total at the first column tile (t % 16 = 0) and
  writes a result block at the last (t % 16 = 15); at every other point the result window is left alone and not
  written back. Two windows read the same array (the cast x): one by column tile, one by row tile.
-/
import proofs.«150975_j42219528520315_1_alg».proof.Proof.Gen.Kernel.Launch
import proofs.«150975_j42219528520315_1_alg».proof.Proof.Gen.Kernel.Skeleton
import proofs.«150975_j42219528520315_1_alg».proof.Proof.Gen.Kernel.Points
import proofs.«150975_j42219528520315_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Call

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core c's buffer contents when the call is entered: after the casts and cuts before it. -/
abbrev V0 (c : Dev nD) : Valuation τ sig (Elt F) := StableHlo.after hostOps0 (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the casts and cuts, then the call. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The three arguments are not written before the call. -/
theorem V_main_arg0 (c : Dev nD) : V m c main_arg0 = m ((c : Thread nD τ).loc main_arg0) := by
  dsimp only [V, V0, hostOps0]; after_results <;> rfl
theorem V_main_arg1 (c : Dev nD) : V m c main_arg1 = m ((c : Thread nD τ).loc main_arg1) := by
  dsimp only [V, V0, hostOps0]; after_results <;> rfl
theorem V_main_arg2 (c : Dev nD) : V m c main_arg2 = m ((c : Thread nD τ).loc main_arg2) := by
  dsimp only [V, V0, hostOps0]; after_results <;> rfl

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks the body reads, at their literal types: a tile of edge weights, the feature tile of the column
    tile's nodes, the feature tile of the row tile's nodes, and the two halves of the weight. -/
abbrev adjBlk (c : Dev nD) (t : Fin cfg0.N) : Vec F S1024x1024 .f32 := iblk m c 0 t
abbrev colBlk (c : Dev nD) (t : Fin cfg0.N) : Vec F S1024x256 .bf16 := iblk m c 1 t
abbrev rowBlk (c : Dev nD) (t : Fin cfg0.N) : Vec F S1024x256 .bf16 := iblk m c 2 t
abbrev selfW (c : Dev nD) (t : Fin cfg0.N) : Vec F S256x256 .bf16 := iblk m c 3 t
abbrev neighW (c : Dev nD) (t : Fin cfg0.N) : Vec F S256x256 .bf16 := iblk m c 4 t

/-! ## The body's two conditions on the grid point -/

/-- The first column tile: the body resets its running total. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The last column tile: the body writes a result block. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last column tile the result window is idle and not written back. -/
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
/-- At the last column tile it is live. -/
theorem live5 : ∀ t : Fin cfg0.N, isLast (grid0.coords t) → cfg0.idle 5 (grid0.coords t) = false := by decide +kernel

/-! ## The staging buffers the body is called with, and its scratch -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .f32 := win0_5.stage (cfg0.slots t 5)
abbrev hs5 (t : Fin cfg0.N) : (ms5 t).IsWhole := hstage0_5 ((cfg0.slots t 5).cast nbuf0_5)
/-- The running total's buffer. -/
abbrev accM : Memref sig .tc .vmem S1024x256 .f32 := Memref.whole cc0_scratch0

/-- What the call lends the body besides the windows: the running total's buffer at some contents, and the
    generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Call

end
-- ==== Proof.KernelBodyRuns.lean ====
/-
  The kernel body run whole, in each of the three cases the grid meets. On whole staging buffers, each owned at
  stated contents, the body runs to its end leaving every input buffer as it was and
    * at a first column tile: the running total at the accumulation of this tile over the reset value, whatever
      it held before; the result buffer untouched;
    * at a middle column tile: the running total at the accumulation of this tile over what it held; the result
      buffer untouched;
    * at a last column tile: the running total likewise, and the result buffer at the last step's value computed
      from that new total.
  Every store covers its buffer, so what a buffer holds afterwards is the stored value itself, and a load that
  follows a store reads the value stored.
-/
import proofs.«150975_j42219528520315_1_alg».proof.Proof.KernelCallSite
import Idealize.ShloMosaic.Lib.Pipeline.Value

set_option maxRecDepth 16384

noncomputable section

namespace Cert.Kernel.Call

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every store and load of the body are zero. -/
theorem zeros2 : (![0, 0] : Fin 2 → Nat) = fun _ => 0 := funext fun j => by fin_cases j <;> rfl

/-! ## Reading back through the whole-buffer rectangle

Stated over an abstract shape: the rectangle at zero offsets of the buffer's own sizes contains every index, so a
store through it covers the buffer and a load through it reads the contents. -/

section ReadBack

variable {Val : EltTy → Type} [∀ e, Nonempty (Val e)] {sg : RefSig} {κ : Kind} {sp : Space} {S : Shape} {e : EltTy}

/-- A buffer stored once through the whole-buffer rectangle reads back as the payload, whatever it held. -/
theorem read_writes_unit_zero (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A buffer whose LAST store went through the whole-buffer rectangle reads back as that store's payload, whatever
    the earlier stores were. -/
theorem read_writes_cons_unit_zero (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-buffer rectangle of a whole buffer held at contents `X` reads `X`. -/
theorem readAt_unread_unit_zero (m : Memref sg κ sp S e) (hm : m.IsWhole) {off : Fin S.rank → Nat}
    (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h]

end ReadBack

set_option maxHeartbeats 1000000 in
/-- A first column tile: reset, then accumulate. -/
theorem run_first (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1024x256 .f32) (harg7 : arg7.IsWhole) (arg8 : Memref sig .tc .vmem S1024x256 .f32) (harg8 : arg8.IsWhole)
    (hf : isFirst i) (hl : ¬isLast i) (a : Vec F S1024x1024 .f32) (xk xm : Vec F S1024x256 .bf16) (w1 w2 : Vec F S256x256 .bf16) (o acc : Vec F S1024x256 .f32) (E : Set ℕ) (K : PUnit → sProp 𝕄) :
    iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
        ∗ owns (c : Thread nD τ) arg7 fullShare o ∗ owns (c : Thread nD τ) arg8 fullShare acc
        ∗ (iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
            ∗ owns (c : Thread nD τ) arg7 fullShare o ∗ owns (c : Thread nD τ) arg8 fullShare (k0_pay2 a (k0_pay1 (F := F)) xk)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  rw [read_writes_cons_unit_zero arg8.view _ zeros2 inb_S1024x256_S1024x256_0_0,
    readAt_unread_unit_zero arg2 harg2 zeros2, readAt_unread_unit_zero arg3 harg3 zeros2]
  sl_unfold_run_names
  rw [View.readCov_unit_zero arg8.view zeros2]

set_option maxHeartbeats 1000000 in
/-- A middle column tile: accumulate. -/
theorem run_mid (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1024x256 .f32) (harg7 : arg7.IsWhole) (arg8 : Memref sig .tc .vmem S1024x256 .f32) (harg8 : arg8.IsWhole)
    (hf : ¬isFirst i) (hl : ¬isLast i) (a : Vec F S1024x1024 .f32) (xk xm : Vec F S1024x256 .bf16) (w1 w2 : Vec F S256x256 .bf16) (o acc : Vec F S1024x256 .f32) (E : Set ℕ) (K : PUnit → sProp 𝕄) :
    iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
        ∗ owns (c : Thread nD τ) arg7 fullShare o ∗ owns (c : Thread nD τ) arg8 fullShare acc
        ∗ (iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
            ∗ owns (c : Thread nD τ) arg7 fullShare o ∗ owns (c : Thread nD τ) arg8 fullShare (k0_pay2 a acc xk)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  rw [read_writes_unit_zero arg8.view _ zeros2 inb_S1024x256_S1024x256_0_0,
    readAt_unread_unit_zero arg2 harg2 zeros2, readAt_unread_unit_zero arg8 harg8 zeros2,
    readAt_unread_unit_zero arg3 harg3 zeros2]

set_option maxHeartbeats 1000000 in
/-- A last column tile: accumulate, then compute and store the result block. -/
theorem run_last (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1024x256 .f32) (harg7 : arg7.IsWhole) (arg8 : Memref sig .tc .vmem S1024x256 .f32) (harg8 : arg8.IsWhole)
    (hf : ¬isFirst i) (hl : isLast i) (a : Vec F S1024x1024 .f32) (xk xm : Vec F S1024x256 .bf16) (w1 w2 : Vec F S256x256 .bf16) (o acc : Vec F S1024x256 .f32) (E : Set ℕ) (K : PUnit → sProp 𝕄) :
    iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
        ∗ owns (c : Thread nD τ) arg7 fullShare o ∗ owns (c : Thread nD τ) arg8 fullShare acc
        ∗ (iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
            ∗ owns (c : Thread nD τ) arg7 fullShare (k0_pay3 (k0_pay2 a acc xk) xm w1 w2) ∗ owns (c : Thread nD τ) arg8 fullShare (k0_pay2 a acc xk)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_run_names
    rw [read_writes_unit_zero arg7.view _ zeros2 inb_S1024x256_S1024x256_0_0,
      View.readCov_unit_zero arg8.view zeros2,
      readAt_unread_unit_zero arg2 harg2 zeros2, readAt_unread_unit_zero arg8 harg8 zeros2,
      readAt_unread_unit_zero arg3 harg3 zeros2, readAt_unread_unit_zero arg4 harg4 zeros2,
      readAt_unread_unit_zero arg5 harg5 zeros2, readAt_unread_unit_zero arg6 harg6 zeros2]
  iexists _; isplitr
  swap; · iexact H8
  ipureintro
  sl_unfold_run_names
  rw [read_writes_unit_zero arg8.view _ zeros2 inb_S1024x256_S1024x256_0_0,
    readAt_unread_unit_zero arg2 harg2 zeros2, readAt_unread_unit_zero arg8 harg8 zeros2,
    readAt_unread_unit_zero arg3 harg3 zeros2]

end Cert.Kernel.Call

end
-- ==== Proof.KernelCarried.lean ====
/-
  What the call's buffers hold from point to point.

  The body keeps a running total in a buffer of its own: after point n it holds the accumulation of that point's
  tile over the reset value if n is a first column tile, over what point n - 1 left otherwise; so along a row tile it
  grows by one column tile at a time. The result window's block at a point is the last step's value computed from
  that total; it is only consulted at the last column tile, where it is written back. Every input window's buffer
  holds its block of the array at every point, fetched there or not. The array both feature windows read is held
  half by each.
-/
import proofs.«150975_j42219528520315_1_alg».proof.Proof.KernelBodyRuns

set_option maxRecDepth 16384

noncomputable section

namespace Cert.Kernel.Call

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running total -/

/-- What the running total's buffer holds after point n. -/
def accAt (c : Dev nD) : (n : ℕ) → n < cfg0.N → Vec F S1024x256 .f32
  | 0, hn => k0_pay2 (adjBlk m c ⟨0, hn⟩) (k0_pay1 (F := F)) (colBlk m c ⟨0, hn⟩)
  | n + 1, hn =>
    if (n + 1) % 16 = 0 then k0_pay2 (adjBlk m c ⟨n + 1, hn⟩) (k0_pay1 (F := F)) (colBlk m c ⟨n + 1, hn⟩)
    else k0_pay2 (adjBlk m c ⟨n + 1, hn⟩) (accAt c n (Nat.lt_of_succ_lt hn)) (colBlk m c ⟨n + 1, hn⟩)

/-- At a first column tile: this tile over the reset value. -/
theorem accAt_first (c : Dev nD) (t : Fin cfg0.N) (h : t.val % 16 = 0) :
    accAt m c t.val t.isLt = k0_pay2 (adjBlk m c t) (k0_pay1 (F := F)) (colBlk m c t) := by
  obtain ⟨n, hn⟩ := t
  cases n with
  | zero => rfl
  | succ n => exact if_pos h

/-- At any other: this tile over what the point before left. -/
theorem accAt_next (c : Dev nD) (t : Fin cfg0.N) (h : ¬t.val % 16 = 0) :
    accAt m c t.val t.isLt
      = k0_pay2 (adjBlk m c t) (accAt m c (t.val - 1) (Nat.lt_of_le_of_lt (Nat.sub_le _ _) t.isLt)) (colBlk m c t) := by
  obtain ⟨n, hn⟩ := t
  cases n with
  | zero => exact absurd (Nat.zero_mod _) h
  | succ n => exact if_neg h

/-- The result block computed at point t from the total there. -/
def outAt (c : Dev nD) (t : Fin cfg0.N) : Vec F S1024x256 .f32 :=
  k0_pay3 (accAt m c t.val t.isLt) (rowBlk m c t) (selfW m c t) (neighW m c t)

/-- What the body holds between points: before the first, its buffer at anything; after point n, the total there. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the call finds them; after the body each input's buffer at its block and the result's at the
    block computed there; between points the running total; nothing owed; the shared array half to each of its
    two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current buffer holds its block at every point, fetched there or not: the block index only moves
    where the window is fetched. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body at a point -/

/-- What the body is called with at point t: what it holds between points, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. Every input buffer holds its block. At a first column tile the running total is reset
    and then holds this tile's accumulation, whatever it held (anything at the very first point, the previous row
    tile's total later); at a later tile it holds this tile's accumulation over what the point before left. Away
    from the last column tile the result window is handed back as found; at the last it holds the block computed
    from the new total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 256 := lt_of_lt_of_eq t.isLt (show cfg0.N = 256 from N_0)
  by_cases h0 : t.val % 16 = 0
  · have h15 : ¬t.val % 16 = 15 := by omega
    have hf : isFirst (grid0.coords t) := (isFirst_iff t).mpr h0
    have hl : ¬isLast (grid0.coords t) := fun h => h15 ((isLast_iff t).mp h)
    rw [Dat.leavesExact_idle (dats m 0 c) 5 t (idle5 t hl) (noFlush5 t hl)]
    rw [accAt_first m c t h0]
    by_cases hz : t.val = 0
    · rw [PhiS_castSucc m c t, PhiS_zero m c _ _ hz, PhiA_eq]
      iintro ⟨⟨⟨%acc0, HS⟩, Hg⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) accM (Memref.isWhole_whole _) hf hl
        (iblk m c 0 t) (iblk m c 1 t) (iblk m c 2 t) (iblk m c 3 t) (iblk m c 4 t) ((dats m 0 c).before 5 t d5) acc0 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) accM (Memref.isWhole_whole _) hf hl
        (iblk m c 0 t) (iblk m c 1 t) (iblk m c 2 t) (iblk m c 3 t) (iblk m c 4 t) ((dats m 0 c).before 5 t d5) (accAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    have hf : ¬isFirst (grid0.coords t) := fun h => h0 ((isFirst_iff t).mp h)
    rw [accAt_next m c t h0]
    rw [PhiS_castSucc m c t, PhiS_pos m c _ _ hz]
    by_cases h15 : t.val % 16 = 15
    · have hl : isLast (grid0.coords t) := (isLast_iff t).mpr h15
      rw [show (dats m 0 c).leavesExact 5 t = owns (c : Thread nD τ) (ms5 t) fullShare ((dats m 0 c).after 5 t) from by
        unfold Dat.leavesExact; rw [live5 t hl], after5]
      unfold outAt
      rw [accAt_next m c t h0]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) (ms0 t) (hs0 t) (ms1 t) (hs1 t) (ms2 t) (hs2 t) (ms3 t) (hs3 t) (ms4 t) (hs4 t) (ms5 t) (hs5 t) accM (Memref.isWhole_whole _) hf hl
        (iblk m c 0 t) (iblk m c 1 t) (iblk m c 2 t) (iblk m c 3 t) (iblk m c 4 t) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬isLast (grid0.coords t) := fun h => h15 ((isLast_iff t).mp h)
      rw [Dat.leavesExact_idle (dats m 0 c) 5 t (idle5 t hl) (noFlush5 t hl)]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) (ms0 t) (hs0 t) (ms1 t) (hs1 t) (ms2 t) (hs2 t) (ms3 t) (hs3 t) (ms4 t) (hs4 t) (ms5 t) (hs5 t) accM (Memref.isWhole_whole _) hf hl
        (iblk m c 0 t) (iblk m c 1 t) (iblk m c 2 t) (iblk m c 3 t) (iblk m c 4 t) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the call lends the body is what the body holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the body's holdings give the loan back: the total's value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Call

end
-- ==== Proof.KernelCallRun.lean ====
/-
  The call, launched. The five distinct arrays behind the six windows are handed to the call whole; the one both
  feature windows read is split in two halves, one per window, and the rest go to their windows as they are. With the
  body's obligation at every point this gives the run of the whole program: it terminates, every window's array ends
  at what the write-backs make of it (an input array unchanged, the result array overwritten block by block), and
  every buffer the call does not touch ends as the call found it. In particular the three arguments end unchanged.
-/
import proofs.«150975_j42219528520315_1_alg».proof.Proof.KernelCarried

set_option maxRecDepth 16384

noncomputable section

namespace Cert.Kernel.Call

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The distinct arrays, each whole, make up the windows' arrays at entry: the cast features split in two halves. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  unfold Pipeline.arrBufs Dat.arrays
  rw [bigSep_eq_bigSepL_of_eq [main_arg1, main_v0, main_v2, main_v4, main_v5] (by decide) (by decide) _, bigSep_W0]
  rw [(arr_whole0 0).set_eq_univ, (arr_whole0 1).set_eq_univ, (arr_whole0 3).set_eq_univ,
    (arr_whole0 4).set_eq_univ, (arr_whole0 5).set_eq_univ]
  rw [share0, share1, share2, share3, share4, share5]
  have e : (bigSepL [main_arg1, main_v0, main_v2, main_v4, main_v5] fun b => ((c.tc : Thread nD τ).loc b) ↦{fullShare} V m c b : sProp 𝕄)
      = iprop((((c.tc : Thread nD τ).loc main_arg1) ↦{fullShare} V m c main_arg1) ∗ (((c.tc : Thread nD τ).loc main_v0) ↦{fullShare} V m c main_v0)
          ∗ (((c.tc : Thread nD τ).loc main_v2) ↦{fullShare} V m c main_v2) ∗ (((c.tc : Thread nD τ).loc main_v4) ↦{fullShare} V m c main_v4)
          ∗ (((c.tc : Thread nD τ).loc main_v5) ↦{fullShare} V m c main_v5)) := rfl
  rw [e]
  iintro ⟨Ha, Hx, Hw1, Hw2, Ho⟩
  ihave Hx2 := (pointsTo_share (PosShare.mem_left_op_right fullShare)).1 $$ Hx
  icases Hx2 with ⟨Hxl, Hxr⟩
  isplitl [Ha]; · iexact Ha
  isplitl [Hxl]; · iexact Hxl
  isplitl [Hxr]; · iexact Hxr
  isplitl [Hw1]; · iexact Hw1
  isplitl [Hw2]; · iexact Hw2
  iexact Ho

/-! ## The run -/

set_option backward.isDefEq.respectTransparency.types false in
/-- Every weakly fair execution of the program terminates, nothing faulting, with every window's array at what the
    write-backs make of it and every other buffer outside the call as the call found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The edge weights are an input window's array: never written. The features and the weight matrix are read only
    before the call. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 rfl (by decide))).trans (V_main_arg0 m c),
   ((h c).1 0).trans (((dats m 0 c).arrAt_in 0 rfl _).trans ((A_eq m c 0).trans (V_main_arg1 m c))),
   ((h c).2 main_arg2 (Pipeline.mem_restRefs_of main_arg2 rfl (by decide))).trans (V_main_arg2 m c)⟩

/-- The program runs and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m r h c) (run_main m ρ)

/-- The same run with the result array named: what the write-backs of the last column tiles make of it. -/
theorem run_result : θ_run defs (onTc (τ := τ) (main (F := F))) ⟨m, fun _ => 0, ρ⟩ (fun r => ∀ c : Dev nD,
      r.2.mem ((c.tc : Thread nD τ).loc main_v5) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1 5, args_kept m r h c⟩) (run_main m ρ)

end Cert.Kernel.Call

end
-- ==== Proof.KernelIdealCallSite.lean ====
/-
  The program up to its one pipelined call, and the call's geometry.

  Before the call the program casts x to the narrower format and cuts w into its two [256, 256] halves (each then
  cast). The call runs a 16 x 16 grid, point t = 16 * (row tile) + (column tile); each window's block at a point is a
  rectangle of the array the call finds. The body resets its running total at the first column tile (t % 16 = 0) and
  writes a result block at the last (t % 16 = 15); at every other point the result window is left alone and not
  written back. Two windows read the same array (the cast x): one by column tile, one by row tile.
-/
import proofs.«150975_j42219528520315_1_alg».proof.Proof.Gen.KernelIdeal.Launch
import proofs.«150975_j42219528520315_1_alg».proof.Proof.Gen.KernelIdeal.Skeleton
import proofs.«150975_j42219528520315_1_alg».proof.Proof.Gen.KernelIdeal.Points
import proofs.«150975_j42219528520315_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Call

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core c's buffer contents when the call is entered: after the casts and cuts before it. -/
abbrev V0 (c : Dev nD) : Valuation τ sig (Elt F) := StableHlo.after hostOps0 (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the casts and cuts, then the call. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The three arguments are not written before the call. -/
theorem V_main_arg0 (c : Dev nD) : V m c main_arg0 = m ((c : Thread nD τ).loc main_arg0) := by
  dsimp only [V, V0, hostOps0]; after_results <;> rfl
theorem V_main_arg1 (c : Dev nD) : V m c main_arg1 = m ((c : Thread nD τ).loc main_arg1) := by
  dsimp only [V, V0, hostOps0]; after_results <;> rfl
theorem V_main_arg2 (c : Dev nD) : V m c main_arg2 = m ((c : Thread nD τ).loc main_arg2) := by
  dsimp only [V, V0, hostOps0]; after_results <;> rfl

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks the body reads, at their literal types: a tile of edge weights, the feature tile of the column
    tile's nodes, the feature tile of the row tile's nodes, and the two halves of the weight. -/
abbrev adjBlk (c : Dev nD) (t : Fin cfg0.N) : Vec F S1024x1024 .f32 := iblk m c 0 t
abbrev colBlk (c : Dev nD) (t : Fin cfg0.N) : Vec F S1024x256 .bf16 := iblk m c 1 t
abbrev rowBlk (c : Dev nD) (t : Fin cfg0.N) : Vec F S1024x256 .bf16 := iblk m c 2 t
abbrev selfW (c : Dev nD) (t : Fin cfg0.N) : Vec F S256x256 .bf16 := iblk m c 3 t
abbrev neighW (c : Dev nD) (t : Fin cfg0.N) : Vec F S256x256 .bf16 := iblk m c 4 t

/-! ## The body's two conditions on the grid point -/

/-- The first column tile: the body resets its running total. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The last column tile: the body writes a result block. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last column tile the result window is idle and not written back. -/
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
/-- At the last column tile it is live. -/
theorem live5 : ∀ t : Fin cfg0.N, isLast (grid0.coords t) → cfg0.idle 5 (grid0.coords t) = false := by decide +kernel

/-! ## The staging buffers the body is called with, and its scratch -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .f32 := win0_5.stage (cfg0.slots t 5)
abbrev hs5 (t : Fin cfg0.N) : (ms5 t).IsWhole := hstage0_5 ((cfg0.slots t 5).cast nbuf0_5)
/-- The running total's buffer. -/
abbrev accM : Memref sig .tc .vmem S1024x256 .f32 := Memref.whole cc0_scratch0

/-- What the call lends the body besides the windows: the running total's buffer at some contents, and the
    generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Call

end
-- ==== Proof.KernelIdealBodyRuns.lean ====
/-
  The kernel body run whole, in each of the three cases the grid meets. On whole staging buffers, each owned at
  stated contents, the body runs to its end leaving every input buffer as it was and
    * at a first column tile: the running total at the accumulation of this tile over the reset value, whatever
      it held before; the result buffer untouched;
    * at a middle column tile: the running total at the accumulation of this tile over what it held; the result
      buffer untouched;
    * at a last column tile: the running total likewise, and the result buffer at the last step's value computed
      from that new total.
  Every store covers its buffer, so what a buffer holds afterwards is the stored value itself, and a load that
  follows a store reads the value stored.
-/
import proofs.«150975_j42219528520315_1_alg».proof.Proof.KernelIdealCallSite
import Idealize.ShloMosaic.Lib.Pipeline.Value

set_option maxRecDepth 16384

noncomputable section

namespace Cert.KernelIdeal.Call

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every store and load of the body are zero. -/
theorem zeros2 : (![0, 0] : Fin 2 → Nat) = fun _ => 0 := funext fun j => by fin_cases j <;> rfl

/-! ## Reading back through the whole-buffer rectangle

Stated over an abstract shape: the rectangle at zero offsets of the buffer's own sizes contains every index, so a
store through it covers the buffer and a load through it reads the contents. -/

section ReadBack

variable {Val : EltTy → Type} [∀ e, Nonempty (Val e)] {sg : RefSig} {κ : Kind} {sp : Space} {S : Shape} {e : EltTy}

/-- A buffer stored once through the whole-buffer rectangle reads back as the payload, whatever it held. -/
theorem read_writes_unit_zero (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A buffer whose LAST store went through the whole-buffer rectangle reads back as that store's payload, whatever
    the earlier stores were. -/
theorem read_writes_cons_unit_zero (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-buffer rectangle of a whole buffer held at contents `X` reads `X`. -/
theorem readAt_unread_unit_zero (m : Memref sg κ sp S e) (hm : m.IsWhole) {off : Fin S.rank → Nat}
    (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h]

end ReadBack

set_option maxHeartbeats 1000000 in
/-- A first column tile: reset, then accumulate. -/
theorem run_first (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1024x256 .f32) (harg7 : arg7.IsWhole) (arg8 : Memref sig .tc .vmem S1024x256 .f32) (harg8 : arg8.IsWhole)
    (hf : isFirst i) (hl : ¬isLast i) (a : Vec F S1024x1024 .f32) (xk xm : Vec F S1024x256 .bf16) (w1 w2 : Vec F S256x256 .bf16) (o acc : Vec F S1024x256 .f32) (E : Set ℕ) (K : PUnit → sProp 𝕄) :
    iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
        ∗ owns (c : Thread nD τ) arg7 fullShare o ∗ owns (c : Thread nD τ) arg8 fullShare acc
        ∗ (iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
            ∗ owns (c : Thread nD τ) arg7 fullShare o ∗ owns (c : Thread nD τ) arg8 fullShare (k0_pay2 a (k0_pay1 (F := F)) xk)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  rw [read_writes_cons_unit_zero arg8.view _ zeros2 inb_S1024x256_S1024x256_0_0,
    readAt_unread_unit_zero arg2 harg2 zeros2, readAt_unread_unit_zero arg3 harg3 zeros2]
  sl_unfold_run_names
  rw [View.readCov_unit_zero arg8.view zeros2]

set_option maxHeartbeats 1000000 in
/-- A middle column tile: accumulate. -/
theorem run_mid (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1024x256 .f32) (harg7 : arg7.IsWhole) (arg8 : Memref sig .tc .vmem S1024x256 .f32) (harg8 : arg8.IsWhole)
    (hf : ¬isFirst i) (hl : ¬isLast i) (a : Vec F S1024x1024 .f32) (xk xm : Vec F S1024x256 .bf16) (w1 w2 : Vec F S256x256 .bf16) (o acc : Vec F S1024x256 .f32) (E : Set ℕ) (K : PUnit → sProp 𝕄) :
    iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
        ∗ owns (c : Thread nD τ) arg7 fullShare o ∗ owns (c : Thread nD τ) arg8 fullShare acc
        ∗ (iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
            ∗ owns (c : Thread nD τ) arg7 fullShare o ∗ owns (c : Thread nD τ) arg8 fullShare (k0_pay2 a acc xk)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  rw [read_writes_unit_zero arg8.view _ zeros2 inb_S1024x256_S1024x256_0_0,
    readAt_unread_unit_zero arg2 harg2 zeros2, readAt_unread_unit_zero arg8 harg8 zeros2,
    readAt_unread_unit_zero arg3 harg3 zeros2]

set_option maxHeartbeats 1000000 in
/-- A last column tile: accumulate, then compute and store the result block. -/
theorem run_last (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1024x256 .f32) (harg7 : arg7.IsWhole) (arg8 : Memref sig .tc .vmem S1024x256 .f32) (harg8 : arg8.IsWhole)
    (hf : ¬isFirst i) (hl : isLast i) (a : Vec F S1024x1024 .f32) (xk xm : Vec F S1024x256 .bf16) (w1 w2 : Vec F S256x256 .bf16) (o acc : Vec F S1024x256 .f32) (E : Set ℕ) (K : PUnit → sProp 𝕄) :
    iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
        ∗ owns (c : Thread nD τ) arg7 fullShare o ∗ owns (c : Thread nD τ) arg8 fullShare acc
        ∗ (iprop(owns (c : Thread nD τ) arg2 fullShare a ∗ owns (c : Thread nD τ) arg3 fullShare xk ∗ owns (c : Thread nD τ) arg4 fullShare xm ∗ owns (c : Thread nD τ) arg5 fullShare w1 ∗ owns (c : Thread nD τ) arg6 fullShare w2
            ∗ owns (c : Thread nD τ) arg7 fullShare (k0_pay3 (k0_pay2 a acc xk) xm w1 w2) ∗ owns (c : Thread nD τ) arg8 fullShare (k0_pay2 a acc xk)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_run_names
    rw [read_writes_unit_zero arg7.view _ zeros2 inb_S1024x256_S1024x256_0_0,
      View.readCov_unit_zero arg8.view zeros2,
      readAt_unread_unit_zero arg2 harg2 zeros2, readAt_unread_unit_zero arg8 harg8 zeros2,
      readAt_unread_unit_zero arg3 harg3 zeros2, readAt_unread_unit_zero arg4 harg4 zeros2,
      readAt_unread_unit_zero arg5 harg5 zeros2, readAt_unread_unit_zero arg6 harg6 zeros2]
  iexists _; isplitr
  swap; · iexact H8
  ipureintro
  sl_unfold_run_names
  rw [read_writes_unit_zero arg8.view _ zeros2 inb_S1024x256_S1024x256_0_0,
    readAt_unread_unit_zero arg2 harg2 zeros2, readAt_unread_unit_zero arg8 harg8 zeros2,
    readAt_unread_unit_zero arg3 harg3 zeros2]

end Cert.KernelIdeal.Call

end
-- ==== Proof.KernelIdealCarried.lean ====
/-
  What the call's buffers hold from point to point.

  The body keeps a running total in a buffer of its own: after point n it holds the accumulation of that point's
  tile over the reset value if n is a first column tile, over what point n - 1 left otherwise; so along a row tile it
  grows by one column tile at a time. The result window's block at a point is the last step's value computed from
  that total; it is only consulted at the last column tile, where it is written back. Every input window's buffer
  holds its block of the array at every point, fetched there or not. The array both feature windows read is held
  half by each.
-/
import proofs.«150975_j42219528520315_1_alg».proof.Proof.KernelIdealBodyRuns

set_option maxRecDepth 16384

noncomputable section

namespace Cert.KernelIdeal.Call

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running total -/

/-- What the running total's buffer holds after point n. -/
def accAt (c : Dev nD) : (n : ℕ) → n < cfg0.N → Vec F S1024x256 .f32
  | 0, hn => k0_pay2 (adjBlk m c ⟨0, hn⟩) (k0_pay1 (F := F)) (colBlk m c ⟨0, hn⟩)
  | n + 1, hn =>
    if (n + 1) % 16 = 0 then k0_pay2 (adjBlk m c ⟨n + 1, hn⟩) (k0_pay1 (F := F)) (colBlk m c ⟨n + 1, hn⟩)
    else k0_pay2 (adjBlk m c ⟨n + 1, hn⟩) (accAt c n (Nat.lt_of_succ_lt hn)) (colBlk m c ⟨n + 1, hn⟩)

/-- At a first column tile: this tile over the reset value. -/
theorem accAt_first (c : Dev nD) (t : Fin cfg0.N) (h : t.val % 16 = 0) :
    accAt m c t.val t.isLt = k0_pay2 (adjBlk m c t) (k0_pay1 (F := F)) (colBlk m c t) := by
  obtain ⟨n, hn⟩ := t
  cases n with
  | zero => rfl
  | succ n => exact if_pos h

/-- At any other: this tile over what the point before left. -/
theorem accAt_next (c : Dev nD) (t : Fin cfg0.N) (h : ¬t.val % 16 = 0) :
    accAt m c t.val t.isLt
      = k0_pay2 (adjBlk m c t) (accAt m c (t.val - 1) (Nat.lt_of_le_of_lt (Nat.sub_le _ _) t.isLt)) (colBlk m c t) := by
  obtain ⟨n, hn⟩ := t
  cases n with
  | zero => exact absurd (Nat.zero_mod _) h
  | succ n => exact if_neg h

/-- The result block computed at point t from the total there. -/
def outAt (c : Dev nD) (t : Fin cfg0.N) : Vec F S1024x256 .f32 :=
  k0_pay3 (accAt m c t.val t.isLt) (rowBlk m c t) (selfW m c t) (neighW m c t)

/-- What the body holds between points: before the first, its buffer at anything; after point n, the total there. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the call finds them; after the body each input's buffer at its block and the result's at the
    block computed there; between points the running total; nothing owed; the shared array half to each of its
    two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current buffer holds its block at every point, fetched there or not: the block index only moves
    where the window is fetched. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body at a point -/

/-- What the body is called with at point t: what it holds between points, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. Every input buffer holds its block. At a first column tile the running total is reset
    and then holds this tile's accumulation, whatever it held (anything at the very first point, the previous row
    tile's total later); at a later tile it holds this tile's accumulation over what the point before left. Away
    from the last column tile the result window is handed back as found; at the last it holds the block computed
    from the new total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  have hN : t.val < 256 := lt_of_lt_of_eq t.isLt (show cfg0.N = 256 from N_0)
  by_cases h0 : t.val % 16 = 0
  · have h15 : ¬t.val % 16 = 15 := by omega
    have hf : isFirst (grid0.coords t) := (isFirst_iff t).mpr h0
    have hl : ¬isLast (grid0.coords t) := fun h => h15 ((isLast_iff t).mp h)
    rw [Dat.leavesExact_idle (dats m 0 c) 5 t (idle5 t hl) (noFlush5 t hl)]
    rw [accAt_first m c t h0]
    by_cases hz : t.val = 0
    · rw [PhiS_castSucc m c t, PhiS_zero m c _ _ hz, PhiA_eq]
      iintro ⟨⟨⟨%acc0, HS⟩, Hg⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) accM (Memref.isWhole_whole _) hf hl
        (iblk m c 0 t) (iblk m c 1 t) (iblk m c 2 t) (iblk m c 3 t) (iblk m c 4 t) ((dats m 0 c).before 5 t d5) acc0 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) accM (Memref.isWhole_whole _) hf hl
        (iblk m c 0 t) (iblk m c 1 t) (iblk m c 2 t) (iblk m c 3 t) (iblk m c 4 t) ((dats m 0 c).before 5 t d5) (accAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    have hf : ¬isFirst (grid0.coords t) := fun h => h0 ((isFirst_iff t).mp h)
    rw [accAt_next m c t h0]
    rw [PhiS_castSucc m c t, PhiS_pos m c _ _ hz]
    by_cases h15 : t.val % 16 = 15
    · have hl : isLast (grid0.coords t) := (isLast_iff t).mpr h15
      rw [show (dats m 0 c).leavesExact 5 t = owns (c : Thread nD τ) (ms5 t) fullShare ((dats m 0 c).after 5 t) from by
        unfold Dat.leavesExact; rw [live5 t hl], after5]
      unfold outAt
      rw [accAt_next m c t h0]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) (ms0 t) (hs0 t) (ms1 t) (hs1 t) (ms2 t) (hs2 t) (ms3 t) (hs3 t) (ms4 t) (hs4 t) (ms5 t) (hs5 t) accM (Memref.isWhole_whole _) hf hl
        (iblk m c 0 t) (iblk m c 1 t) (iblk m c 2 t) (iblk m c 3 t) (iblk m c 4 t) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬isLast (grid0.coords t) := fun h => h15 ((isLast_iff t).mp h)
      rw [Dat.leavesExact_idle (dats m 0 c) 5 t (idle5 t hl) (noFlush5 t hl)]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) (ms0 t) (hs0 t) (ms1 t) (hs1 t) (ms2 t) (hs2 t) (ms3 t) (hs3 t) (ms4 t) (hs4 t) (ms5 t) (hs5 t) accM (Memref.isWhole_whole _) hf hl
        (iblk m c 0 t) (iblk m c 1 t) (iblk m c 2 t) (iblk m c 3 t) (iblk m c 4 t) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the call lends the body is what the body holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the body's holdings give the loan back: the total's value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Call

end
-- ==== Proof.KernelIdealCallRun.lean ====
/-
  The call, launched. The five distinct arrays behind the six windows are handed to the call whole; the one both
  feature windows read is split in two halves, one per window, and the rest go to their windows as they are. With the
  body's obligation at every point this gives the run of the whole program: it terminates, every window's array ends
  at what the write-backs make of it (an input array unchanged, the result array overwritten block by block), and
  every buffer the call does not touch ends as the call found it. In particular the three arguments end unchanged.
-/
import proofs.«150975_j42219528520315_1_alg».proof.Proof.KernelIdealCarried

set_option maxRecDepth 16384

noncomputable section

namespace Cert.KernelIdeal.Call

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The distinct arrays, each whole, make up the windows' arrays at entry: the cast features split in two halves. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  unfold Pipeline.arrBufs Dat.arrays
  rw [bigSep_eq_bigSepL_of_eq [main_arg1, main_v0, main_v2, main_v4, main_v5] (by decide) (by decide) _, bigSep_W0]
  rw [(arr_whole0 0).set_eq_univ, (arr_whole0 1).set_eq_univ, (arr_whole0 3).set_eq_univ,
    (arr_whole0 4).set_eq_univ, (arr_whole0 5).set_eq_univ]
  rw [share0, share1, share2, share3, share4, share5]
  have e : (bigSepL [main_arg1, main_v0, main_v2, main_v4, main_v5] fun b => ((c.tc : Thread nD τ).loc b) ↦{fullShare} V m c b : sProp 𝕄)
      = iprop((((c.tc : Thread nD τ).loc main_arg1) ↦{fullShare} V m c main_arg1) ∗ (((c.tc : Thread nD τ).loc main_v0) ↦{fullShare} V m c main_v0)
          ∗ (((c.tc : Thread nD τ).loc main_v2) ↦{fullShare} V m c main_v2) ∗ (((c.tc : Thread nD τ).loc main_v4) ↦{fullShare} V m c main_v4)
          ∗ (((c.tc : Thread nD τ).loc main_v5) ↦{fullShare} V m c main_v5)) := rfl
  rw [e]
  iintro ⟨Ha, Hx, Hw1, Hw2, Ho⟩
  ihave Hx2 := (pointsTo_share (PosShare.mem_left_op_right fullShare)).1 $$ Hx
  icases Hx2 with ⟨Hxl, Hxr⟩
  isplitl [Ha]; · iexact Ha
  isplitl [Hxl]; · iexact Hxl
  isplitl [Hxr]; · iexact Hxr
  isplitl [Hw1]; · iexact Hw1
  isplitl [Hw2]; · iexact Hw2
  iexact Ho

/-! ## The run -/

set_option backward.isDefEq.respectTransparency.types false in
/-- Every weakly fair execution of the program terminates, nothing faulting, with every window's array at what the
    write-backs make of it and every other buffer outside the call as the call found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The edge weights are an input window's array: never written. The features and the weight matrix are read only
    before the call. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 rfl (by decide))).trans (V_main_arg0 m c),
   ((h c).1 0).trans (((dats m 0 c).arrAt_in 0 rfl _).trans ((A_eq m c 0).trans (V_main_arg1 m c))),
   ((h c).2 main_arg2 (Pipeline.mem_restRefs_of main_arg2 rfl (by decide))).trans (V_main_arg2 m c)⟩

/-- The program runs and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m r h c) (run_main m ρ)

/-- The same run with the result array named: what the write-backs of the last column tiles make of it. -/
theorem run_result : θ_run defs (onTc (τ := τ) (main (F := F))) ⟨m, fun _ => 0, ρ⟩ (fun r => ∀ c : Dev nD,
      r.2.mem ((c.tc : Thread nD τ).loc main_v5) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1 5, args_kept m r h c⟩) (run_main m ρ)

end Cert.KernelIdeal.Call

end
-- ==== Proof.SageSpec.lean ====
/-
  One graph layer as a function of its three arrays, over the extended reals.

  For node features x [16384, 256], edge weights adj [16384, 16384] and a weight matrix w [512, 256]:
    neigh i k  = sum over nodes n of adj (i, n) * x (n, k)                      (neighbour aggregate)
    pre i j    = sum_k x (i, k) * w (k, j)  +  sum_k neigh i k * w (256 + k, j)   (self half plus neighbour half of w)
    act i j    = logistic (pre i j)
    out (i, j) = act i j * rsqrt (sum_j' act i j' * act i j').
  The aggregate's 16384 terms are also taken 1024 at a time (headSum): what a running total holds after n tiles.
  The algebra below is what joins two arrangements of this function: a 512-term contraction of the row [x | neigh]
  with w splits into its two halves; a total taken tile by tile is the whole sum; and, where every pre-activation is a
  real number, every act is a positive real, so the sum of squares is a positive real s and dividing by sqrt s is
  multiplying by rsqrt s.
-/
import Idealize.ShloMosaic.PureOps.Ideal
import Idealize.ShloMosaic.Lib.ValueIdx

noncomputable section

open scoped BigOperators

namespace Cert.SageSpec

open Idealize.ShloMosaic Idealize.ShloMosaic.ValueIdx

/-- Node features, and the layer's result: 16384 nodes by 256 features. -/
abbrev Feat : Shape := ⟨2, ![16384, 256]⟩
/-- Edge weights between the 16384 nodes. -/
abbrev Adj : Shape := ⟨2, ![16384, 16384]⟩
/-- The weight matrix: rows 0..255 act on a node's own features, rows 256..511 on its neighbour aggregate. -/
abbrev Wt : Shape := ⟨2, ![512, 256]⟩

/-- Row k of the half of w that acts on a node's own features. -/
def selfRow (k : Fin 256) : Fin 512 := ⟨k.val, by omega⟩
/-- Row k of the half of w that acts on the neighbour aggregate. -/
def neighRow (k : Fin 256) : Fin 512 := ⟨256 + k.val, by omega⟩

section Layer
variable (x : Feat.Idx → EReal) (adj : Adj.Idx → EReal) (w : Wt.Idx → EReal)

/-- The neighbour aggregate of node i at feature k. -/
def neigh (i : Fin 16384) (k : Fin 256) : EReal := ∑ n : Fin 16384, adj (ix2 i n) * x (ix2 n k)

/-- The pre-activation of node i at output feature j. -/
def pre (i : Fin 16384) (j : Fin 256) : EReal :=
  (∑ k : Fin 256, x (ix2 i k) * w (ix2 (selfRow k) j)) + ∑ k : Fin 256, neigh x adj i k * w (ix2 (neighRow k) j)

/-- The activation. -/
def act (i : Fin 16384) (j : Fin 256) : EReal := Ideal.logistic (pre x adj w i j)

/-- The squared length of node i's activation row. -/
def sumsq (i : Fin 16384) : EReal := ∑ j : Fin 256, act x adj w i j * act x adj w i j

/-- The layer's result at node i, feature j: the activation row scaled to unit length. -/
def outAt (i : Fin 16384) (j : Fin 256) : EReal := act x adj w i j * Ideal.rsqrt (sumsq x adj w i)

/-- The layer's result as an array. -/
def out : Feat.Idx → EReal := fun y => outAt x adj w (y 0) (y 1)

theorem out_ix2 (i : Fin 16384) (j : Fin 256) : out x adj w (ix2 i j) = outAt x adj w i j := rfl

end Layer

/-! ## A sum of 16384 terms taken 1024 at a time -/

/-- The terms of the first n tiles of 1024. -/
def headSum (f : Fin 16384 → EReal) (n : ℕ) : EReal := ∑ k : Fin 16384, if k.val < n * 1024 then f k else 0

theorem headSum_zero (f : Fin 16384 → EReal) : headSum f 0 = 0 := by
  unfold headSum
  apply Finset.sum_eq_zero
  intro k _
  rw [if_neg (by omega)]

/-- One more tile: the 1024 terms at positions n * 1024 + kk. -/
theorem headSum_succ (f : Fin 16384 → EReal) (n : ℕ) (hn : n < 16) :
    headSum f (n + 1) = headSum f n + ∑ kk : Fin 1024, f ⟨n * 1024 + kk.val, by have := kk.isLt; omega⟩ := by
  unfold headSum
  -- the indicator of k < (n + 1) * 1024 is that of k < n * 1024 plus that of the tile n * 1024 ≤ k < (n + 1) * 1024
  have hsplit : ∀ k : Fin 16384, (if k.val < (n + 1) * 1024 then f k else 0)
      = (if k.val < n * 1024 then f k else 0)
        + (if n * 1024 ≤ k.val ∧ k.val < (n + 1) * 1024 then f k else 0) := by
    intro k
    by_cases h1 : k.val < n * 1024
    · have h2 : k.val < (n + 1) * 1024 := by omega
      have h3 : ¬ (n * 1024 ≤ k.val ∧ k.val < (n + 1) * 1024) := by omega
      rw [if_pos h1, if_pos h2, if_neg h3, add_zero]
    · by_cases h2 : k.val < (n + 1) * 1024
      · have h3 : n * 1024 ≤ k.val ∧ k.val < (n + 1) * 1024 := ⟨by omega, h2⟩
        rw [if_neg h1, if_pos h2, if_pos h3, zero_add]
      · have h3 : ¬ (n * 1024 ≤ k.val ∧ k.val < (n + 1) * 1024) := by omega
        rw [if_neg h1, if_neg h2, if_neg h3, add_zero]
  rw [Finset.sum_congr rfl (fun k _ => hsplit k), Finset.sum_add_distrib]
  refine congrArg (fun t => (∑ k : Fin 16384, if k.val < n * 1024 then f k else 0) + t) ?_
  -- the tile's terms, reindexed by the offset inside the tile
  rw [← Finset.sum_filter]
  symm
  refine Finset.sum_nbij'
    (fun kk : Fin 1024 => (⟨n * 1024 + kk.val, by have := kk.isLt; omega⟩ : Fin 16384))
    (fun k : Fin 16384 => (⟨(k.val - n * 1024) % 1024, Nat.mod_lt _ (by norm_num)⟩ : Fin 1024))
    ?_ ?_ ?_ ?_ ?_
  · intro kk _
    have := kk.isLt
    simp only [Finset.mem_filter, Finset.mem_univ, true_and]
    constructor <;> omega
  · intro k _
    exact Finset.mem_univ _
  · intro kk _
    have := kk.isLt
    apply Fin.ext
    simp only
    omega
  · intro k hk
    simp only [Finset.mem_filter, Finset.mem_univ, true_and] at hk
    apply Fin.ext
    simp only
    omega
  · intro kk _
    rfl

/-- All sixteen tiles are the whole sum. -/
theorem headSum_full (f : Fin 16384 → EReal) : headSum f 16 = ∑ k : Fin 16384, f k := by
  unfold headSum
  apply Finset.sum_congr rfl
  intro k _
  have := k.isLt
  rw [if_pos (by omega)]

/-! ## A sum of 512 terms as its two halves -/

theorem sum_halves (g : Fin 512 → EReal) :
    ∑ k : Fin 512, g k = (∑ k : Fin 256, g (selfRow k)) + ∑ k : Fin 256, g (neighRow k) := by
  -- 512 = 256 + 256: the first 256 indices, then the 256 indices shifted by 256
  have h : ∑ k : Fin 512, g k = ∑ k : Fin (256 + 256), g k := rfl
  rw [h, Fin.sum_univ_add]
  rfl

/-! ## Real entries -/

/-- An extended real that is a real number. -/
def IsReal (e : EReal) : Prop := ∃ r : ℝ, e = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sum {ι : Type} (s : Finset ι) (f : ι → EReal) (h : ∀ i ∈ s, IsReal (f i)) : IsReal (∑ i ∈ s, f i) := by
  classical
  induction s using Finset.induction_on with
  | empty => exact ⟨0, by rw [Finset.sum_empty, EReal.coe_zero]⟩
  | insert a s has ih =>
    rw [Finset.sum_insert has]
    exact IsReal.add (h a (Finset.mem_insert_self a s)) (ih (fun i hi => h i (Finset.mem_insert_of_mem hi)))

/-- With real entries everywhere every pre-activation is a real number. -/
theorem pre_isReal (x : Feat.Idx → EReal) (adj : Adj.Idx → EReal) (w : Wt.Idx → EReal)
    (hx : ∀ y, IsReal (x y)) (ha : ∀ y, IsReal (adj y)) (hw : ∀ y, IsReal (w y)) (i : Fin 16384) (j : Fin 256) :
    IsReal (pre x adj w i j) := by
  unfold pre neigh
  exact IsReal.add
    (IsReal.sum _ _ (fun k _ => (hx _).mul (hw _)))
    (IsReal.sum _ _ (fun k _ => (IsReal.sum _ _ (fun n _ => (ha _).mul (hx _))).mul (hw _)))

/-- The coercion of a finite sum of reals is the sum of the coercions. -/
private theorem ereal_coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s has ih => rw [Finset.sum_insert has, Finset.sum_insert has, EReal.coe_add, ih]

/-- Dividing a row of activations by the square root of its squared length is scaling it by the reciprocal square
    root, when every pre-activation is a real number: each activation is then a positive real, so the squared length
    is a positive real. -/
theorem div_sqrt_eq_mul_rsqrt (z : Fin 256 → EReal) (hz : ∀ j, IsReal (z j)) (j : Fin 256) :
    Ideal.div (Ideal.logistic (z j)) (Ideal.sqrt (∑ j' : Fin 256, Ideal.logistic (z j') * Ideal.logistic (z j')))
      = Ideal.logistic (z j) * Ideal.rsqrt (∑ j' : Fin 256, Ideal.logistic (z j') * Ideal.logistic (z j')) := by
  choose r hr using hz
  -- each activation is the positive real a j = (1 + exp (- r j))⁻¹
  have hlog : ∀ j, Ideal.logistic (z j) = (((1 + Real.exp (-(r j)))⁻¹ : ℝ) : EReal) := fun j => by
    rw [hr j, Ideal.logistic_coe]
  have hapos : ∀ j, (0 : ℝ) < (1 + Real.exp (-(r j)))⁻¹ := fun j => by positivity
  -- the squared length is the real S = ∑ a j * a j, and S > 0
  have hsum : (∑ j' : Fin 256, Ideal.logistic (z j') * Ideal.logistic (z j'))
      = ((∑ j' : Fin 256, (1 + Real.exp (-(r j')))⁻¹ * (1 + Real.exp (-(r j')))⁻¹ : ℝ) : EReal) := by
    rw [ereal_coe_sum]
    apply Finset.sum_congr rfl
    intro j' _
    rw [hlog, EReal.coe_mul]
  have hS : (0 : ℝ) < ∑ j' : Fin 256, (1 + Real.exp (-(r j')))⁻¹ * (1 + Real.exp (-(r j')))⁻¹ :=
    Finset.sum_pos (fun j' _ => mul_pos (hapos j') (hapos j')) ⟨0, Finset.mem_univ _⟩
  have hsq : (0 : ℝ) < Real.sqrt (∑ j' : Fin 256, (1 + Real.exp (-(r j')))⁻¹ * (1 + Real.exp (-(r j')))⁻¹) :=
    Real.sqrt_pos.mpr hS
  rw [hsum, Ideal.sqrt_coe, Ideal.rsqrt_coe, if_neg (not_lt.mpr hS.le), if_neg (not_lt.mpr hS.le), if_neg hS.ne',
    Ideal.div_coe hsq.ne', one_div]

end Cert.SageSpec

end
-- ==== Proof.KernelIdealBlockReads.lean ====
/-
  The blocks the kernel body reads, entry by entry, as entries of the three argument arrays.

  Point t of the 16 x 16 grid is row tile t / 16 and column tile t % 16. Over the extended reals the casts before the
  call are the identity and the two cuts of w are its upper and lower 256 rows, so at point t:
    the edge tile at (p, kk) is adj (1024 * (t / 16) + p, 1024 * (t % 16) + kk);
    the column tile of features at (kk, k) is x (1024 * (t % 16) + kk, k);
    the row tile of features at (p, k) is x (1024 * (t / 16) + p, k);
    the two weight blocks at (k, q) are w (k, q) and w (256 + k, q).
-/
import proofs.«150975_j42219528520315_1_alg».proof.Proof.KernelIdealCallSite
import proofs.«150975_j42219528520315_1_alg».proof.Proof.SageSpec
import Idealize.ShloMosaic.Lib.Pipeline.Value
import Idealize.ShloMosaic.Lib.StableHlo.Run

set_option maxRecDepth 16384

noncomputable section

open scoped BigOperators

namespace Cert.KernelIdeal.Value

open Cert.KernelIdeal Cert.KernelIdeal.Gen Cert.KernelIdeal.Call
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The three argument arrays on core c. -/
abbrev xs (c : Dev nD) : Cert.SageSpec.Feat.Idx → EReal := m ((c.tc : Thread nD τ).loc main_arg0)
abbrev adjs (c : Dev nD) : Cert.SageSpec.Adj.Idx → EReal := m ((c.tc : Thread nD τ).loc main_arg1)
abbrev ws (c : Dev nD) : Cert.SageSpec.Wt.Idx → EReal := m ((c.tc : Thread nD τ).loc main_arg2)

/-- The node that row p of point t's row tile is. -/
def rowOf (t : Fin cfg0.N) (p : Fin 1024) : Fin 16384 :=
  ⟨(t.val / 16) * 1024 + p.val, by have := lt_of_lt_of_eq t.isLt N_0; have := p.isLt; omega⟩
/-- The node that row kk of point t's column tile is. -/
def colOf (t : Fin cfg0.N) (kk : Fin 1024) : Fin 16384 :=
  ⟨(t.val % 16) * 1024 + kk.val, by have := kk.isLt; omega⟩

/-! ## The index maps over the grid -/

/-- The edge window's block at point t is the one at (row tile, column tile). -/
private theorem idx0 : ∀ t : Fin cfg0.N, (win0_0.index t 0 = t.val / 16 ∧ win0_0.index t 1 = t.val % 16) :=
  (by decide +kernel : ∀ t : Fin grid0.N, _)
/-- The column-tile feature window's block is the one at (column tile, 0). -/
private theorem idx1 : ∀ t : Fin cfg0.N, (win0_1.index t 0 = t.val % 16 ∧ win0_1.index t 1 = 0) :=
  (by decide +kernel : ∀ t : Fin grid0.N, _)
/-- The row-tile feature window's block is the one at (row tile, 0). -/
private theorem idx2 : ∀ t : Fin cfg0.N, (win0_2.index t 0 = t.val / 16 ∧ win0_2.index t 1 = 0) :=
  (by decide +kernel : ∀ t : Fin grid0.N, _)
/-- Each weight window's one block is the whole of its array. -/
private theorem idx3 : ∀ t : Fin cfg0.N, (win0_3.index t 0 = 0 ∧ win0_3.index t 1 = 0) :=
  (by decide +kernel : ∀ t : Fin grid0.N, _)
private theorem idx4 : ∀ t : Fin cfg0.N, (win0_4.index t 0 = 0 ∧ win0_4.index t 1 = 0) :=
  (by decide +kernel : ∀ t : Fin grid0.N, _)

/-! ## The edge tile -/

theorem adjBlk_apply (c : Dev nD) (t : Fin cfg0.N) (p kk : Fin 1024) :
    adjBlk (F := Ideal) m c t (ix2 p kk) = adjs m c (ix2 (rowOf t p) (colOf t kk)) := by
  unfold adjBlk iblk
  rw [View.read_apply]
  show V m c main_arg1 (((cfg0.win 0).blk t).view.emb (ix2 p kk)) = _
  rw [V_main_arg1]
  show m ((c : Thread nD τ).loc main_arg1) _ = m ((c : Thread nD τ).loc main_arg1) _
  congr 1
  funext a; apply Fin.ext
  obtain ⟨e0, e1⟩ := idx0 t
  match a with
  | ⟨0, _⟩ => show win0_0.index t (0 : Fin 2) * 1024 + 1 * p.val = (t.val / 16) * 1024 + p.val; omega
  | ⟨1, _⟩ => show win0_0.index t (1 : Fin 2) * 1024 + 1 * kk.val = (t.val % 16) * 1024 + kk.val; omega

/-! ## The arrays written before the call -/

/-- The cast features, as the call finds them. -/
private theorem V_main_v0 (c : Dev nD) :
    (V m c main_v0 : S16384x256.Idx → EReal)
      = truncf (F := Ideal) .bf16 (m ((c : Thread nD τ).loc main_arg0)) bitsLt_bf16_f32 := by
  dsimp only [V, V0, hostOps0]; after_results <;> rfl

/-- Over the extended reals the cast is the identity: the cast features are the features. -/
private theorem V_main_v0_apply (c : Dev nD) (i : Fin 16384) (k : Fin 256) :
    (V m c main_v0 : S16384x256.Idx → EReal) (ix2 i k) = xs m c (ix2 i k) := by
  rw [V_main_v0]; rfl

/-! ## The two feature tiles -/

theorem colBlk_apply (c : Dev nD) (t : Fin cfg0.N) (kk : Fin 1024) (k : Fin 256) :
    colBlk (F := Ideal) m c t (ix2 kk k) = xs m c (ix2 (colOf t kk) k) := by
  unfold colBlk iblk
  rw [View.read_apply]
  show V m c main_v0 (((cfg0.win 1).blk t).view.emb (ix2 kk k)) = _
  refine Eq.trans ?_ (V_main_v0_apply m c (colOf t kk) k)
  show V m c main_v0 _ = V m c main_v0 _
  congr 1
  funext a; apply Fin.ext
  obtain ⟨e0, e1⟩ := idx1 t
  match a with
  | ⟨0, _⟩ => show win0_1.index t (0 : Fin 2) * 1024 + 1 * kk.val = (t.val % 16) * 1024 + kk.val; omega
  | ⟨1, _⟩ => show win0_1.index t (1 : Fin 2) * 256 + 1 * k.val = k.val; omega

theorem rowBlk_apply (c : Dev nD) (t : Fin cfg0.N) (p : Fin 1024) (k : Fin 256) :
    rowBlk (F := Ideal) m c t (ix2 p k) = xs m c (ix2 (rowOf t p) k) := by
  unfold rowBlk iblk
  rw [View.read_apply]
  show V m c main_v0 (((cfg0.win 2).blk t).view.emb (ix2 p k)) = _
  refine Eq.trans ?_ (V_main_v0_apply m c (rowOf t p) k)
  show V m c main_v0 _ = V m c main_v0 _
  congr 1
  funext a; apply Fin.ext
  obtain ⟨e0, e1⟩ := idx2 t
  match a with
  | ⟨0, _⟩ => show win0_2.index t (0 : Fin 2) * 1024 + 1 * p.val = (t.val / 16) * 1024 + p.val; omega
  | ⟨1, _⟩ => show win0_2.index t (1 : Fin 2) * 256 + 1 * k.val = k.val; omega

/-- The upper half of w, cut and cast, as the call finds it. -/
private theorem V_main_v2 (c : Dev nD) :
    (V m c main_v2 : S256x256.Idx → EReal)
      = truncf (F := Ideal) .bf16
          (extractStridedSlice S256x256 ![0, 0] (m ((c : Thread nD τ).loc main_arg2)) slices_S512x256_S256x256_0_0)
          bitsLt_bf16_f32 := by
  dsimp only [V, V0, hostOps0]; after_results <;> rfl

/-- The lower half of w, cut and cast, as the call finds it. -/
private theorem V_main_v4 (c : Dev nD) :
    (V m c main_v4 : S256x256.Idx → EReal)
      = truncf (F := Ideal) .bf16
          (extractStridedSlice S256x256 ![256, 0] (m ((c : Thread nD τ).loc main_arg2)) slices_S512x256_S256x256_256_0)
          bitsLt_bf16_f32 := by
  dsimp only [V, V0, hostOps0]; after_results <;> rfl

/-- Row k of the upper half is row k of w. -/
private theorem V_main_v2_apply (c : Dev nD) (k q : Fin 256) :
    (V m c main_v2 : S256x256.Idx → EReal) (ix2 k q) = ws m c (ix2 (Cert.SageSpec.selfRow k) q) := by
  rw [V_main_v2, truncf_apply]
  refine extractStridedSlice_apply ![0, 0] (m ((c : Thread nD τ).loc main_arg2)) slices_S512x256_S256x256_0_0
    (ix2 k q) (ix2 (Cert.SageSpec.selfRow k) q) (fun a => ?_)
  match a with
  | ⟨0, _⟩ => show k.val = 0 + k.val; omega
  | ⟨1, _⟩ => show q.val = 0 + q.val; omega

/-- Row k of the lower half is row 256 + k of w. -/
private theorem V_main_v4_apply (c : Dev nD) (k q : Fin 256) :
    (V m c main_v4 : S256x256.Idx → EReal) (ix2 k q) = ws m c (ix2 (Cert.SageSpec.neighRow k) q) := by
  rw [V_main_v4, truncf_apply]
  refine extractStridedSlice_apply ![256, 0] (m ((c : Thread nD τ).loc main_arg2)) slices_S512x256_S256x256_256_0
    (ix2 k q) (ix2 (Cert.SageSpec.neighRow k) q) (fun a => ?_)
  match a with
  | ⟨0, _⟩ => show 256 + k.val = 256 + k.val; rfl
  | ⟨1, _⟩ => show q.val = 0 + q.val; omega

/-! ## The two weight blocks -/

theorem selfW_apply (c : Dev nD) (t : Fin cfg0.N) (k q : Fin 256) :
    selfW (F := Ideal) m c t (ix2 k q) = ws m c (ix2 (Cert.SageSpec.selfRow k) q) := by
  unfold selfW iblk
  rw [View.read_apply]
  show V m c main_v2 (((cfg0.win 3).blk t).view.emb (ix2 k q)) = _
  refine Eq.trans ?_ (V_main_v2_apply m c k q)
  show V m c main_v2 _ = V m c main_v2 _
  congr 1
  funext a; apply Fin.ext
  obtain ⟨e0, e1⟩ := idx3 t
  match a with
  | ⟨0, _⟩ => show win0_3.index t (0 : Fin 2) * 256 + 1 * k.val = k.val; omega
  | ⟨1, _⟩ => show win0_3.index t (1 : Fin 2) * 256 + 1 * q.val = q.val; omega

theorem neighW_apply (c : Dev nD) (t : Fin cfg0.N) (k q : Fin 256) :
    neighW (F := Ideal) m c t (ix2 k q) = ws m c (ix2 (Cert.SageSpec.neighRow k) q) := by
  unfold neighW iblk
  rw [View.read_apply]
  show V m c main_v4 (((cfg0.win 4).blk t).view.emb (ix2 k q)) = _
  refine Eq.trans ?_ (V_main_v4_apply m c k q)
  show V m c main_v4 _ = V m c main_v4 _
  congr 1
  funext a; apply Fin.ext
  obtain ⟨e0, e1⟩ := idx4 t
  match a with
  | ⟨0, _⟩ => show win0_4.index t (0 : Fin 2) * 256 + 1 * k.val = k.val; omega
  | ⟨1, _⟩ => show win0_4.index t (1 : Fin 2) * 256 + 1 * q.val = q.val; omega

end Cert.KernelIdeal.Value

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KernelPayload.lean ====
/-
  What the kernel body stores, entry by entry, over the extended reals, for one [1024, 256] block of rows.
    * the reset stores zero;
    * the accumulation stores acc (p, q) + sum over kk < 1024 of a (p, kk) * xk (kk, q): the running total plus one
      [1024, 1024] tile of edge weights against the matching [1024, 256] tile of features;
    * the last step stores logistic (z p q) * rsqrt (sum_j logistic (z p j) ^ 2) with
      z p q = sum_k xm (p, k) * w1 (k, q) + sum_k acc (p, k) * w2 (k, q).
  Changes of float format are the identity here and a product into a zero accumulator is the plain sum.
-/
import proofs.«150975_j42219528520315_1_alg».proof.Proof.Gen.KernelIdeal.Skeleton
import proofs.«150975_j42219528520315_1_alg».proof.Proof.LibPlainDot
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The pre-activation of row p of a block at feature q, from the block's own features xm, its running total acc
    and the two halves of the weight. -/
def blockPre (acc xm : S1024x256.Idx → EReal) (w1 w2 : S256x256.Idx → EReal) (p : Fin 1024) (q : Fin 256) : EReal :=
  (∑ k : Fin 256, xm (ix2 p k) * w1 (ix2 k q)) + ∑ k : Fin 256, acc (ix2 p k) * w2 (ix2 k q)

theorem reset_apply (y : S1024x256.Idx) : k0_pay1 (F := Ideal) y = (0 : EReal) := by
  have h : k0_pay1 (F := Ideal) = broadcast S1024x256 (Scalar.ofBits (F := Ideal) .f32 0x00000000#32) := by
    unfold k0_pay1
    exact shapeCast_self _ _
  rw [h]
  exact Ideal.ofBits_zero_f32

/-- A product of a [1024, 1024] tile with a [1024, 256] tile into the zero accumulator, at the entry (p, q). -/
theorem tileDot_apply (l : FVec Ideal S1024x1024 .bf16) (r : FVec Ideal S1024x256 .bf16) (p : Fin 1024) (q : Fin 256) :
    matmul (F := Ideal) dot_S1024x1024_S1024x256_S1024x256_1_0_0_1_n_n none l r (constant S1024x256 .f32 0x00000000#32) (ix2 p q)
      = ∑ k : Fin 1024, (l (ix2 p k) : EReal) * (r (ix2 k q) : EReal) :=
  PlainDot.matmul_zero_apply dot_S1024x1024_S1024x256_S1024x256_1_0_0_1_n_n rfl rfl rfl rfl rfl rfl none l r p q

/-- A product of a [1024, 256] block with a [256, 256] weight into the zero accumulator, at the entry (p, q). -/
theorem weightDot_apply (l : FVec Ideal S1024x256 .bf16) (r : FVec Ideal S256x256 .bf16) (p : Fin 1024) (q : Fin 256) :
    matmul (F := Ideal) dot_S1024x256_S256x256_S1024x256_1_0_0_1_n_n none l r (constant S1024x256 .f32 0x00000000#32) (ix2 p q)
      = ∑ k : Fin 256, (l (ix2 p k) : EReal) * (r (ix2 k q) : EReal) :=
  PlainDot.matmul_zero_apply dot_S1024x256_S256x256_S1024x256_1_0_0_1_n_n rfl rfl rfl rfl rfl rfl none l r p q

theorem accumulate_apply (a : Vec Ideal S1024x1024 .f32) (acc : Vec Ideal S1024x256 .f32) (xk : Vec Ideal S1024x256 .bf16)
    (p : Fin 1024) (q : Fin 256) :
    k0_pay2 (F := Ideal) a acc xk (ix2 p q)
      = (acc (ix2 p q) : EReal) + ∑ kk : Fin 1024, (a (ix2 p kk) : EReal) * (xk (ix2 kk q) : EReal) := by
  have h : k0_pay2 (F := Ideal) a acc xk
      = addf acc (matmul (F := Ideal) (φ₁ := .bf16) (φ₂ := .bf16) dot_S1024x1024_S1024x256_S1024x256_1_0_0_1_n_n none
          (truncf .bf16 a bitsLt_bf16_f32) xk (constant S1024x256 .f32 0x00000000#32)) := by
    unfold k0_pay2
    simp only [shapeCast_self]
  rw [h]
  show (acc (ix2 p q) : EReal) + _ = _
  exact congrArg (fun t => (acc (ix2 p q) : EReal) + t) (tileDot_apply (truncf .bf16 a bitsLt_bf16_f32) xk p q)

/-- The pre-activation as the kernel forms it: two products into zero accumulators, added. -/
def kernelPre (acc : FVec Ideal S1024x256 .f32) (xm : FVec Ideal S1024x256 .bf16) (w1 w2 : FVec Ideal S256x256 .bf16) :
    FVec Ideal S1024x256 .f32 :=
  addf (matmul (F := Ideal) dot_S1024x256_S256x256_S1024x256_1_0_0_1_n_n none xm w1 (constant S1024x256 .f32 0x00000000#32))
    (matmul (F := Ideal) dot_S1024x256_S256x256_S1024x256_1_0_0_1_n_n none (truncf .bf16 acc bitsLt_bf16_f32) w2
      (constant S1024x256 .f32 0x00000000#32))

theorem pre_apply (acc : FVec Ideal S1024x256 .f32) (xm : FVec Ideal S1024x256 .bf16) (w1 w2 : FVec Ideal S256x256 .bf16)
    (p : Fin 1024) (q : Fin 256) :
    kernelPre acc xm w1 w2 (ix2 p q) = blockPre acc xm w1 w2 p q := by
  show (_ : EReal) + _ = _
  rw [weightDot_apply, weightDot_apply]
  rfl

/-- The normalisation as the kernel forms it, from any pre-activation z: logistic, the squares summed along a row,
    the inverse square root of that sum repeated along the row, and the product. -/
def kernelTail (z : FVec Ideal S1024x256 .f32) : FVec Ideal S1024x256 .f32 :=
  mulf (logistic z)
    (broadcastTo S1024x256
      (rsqrt (shapeCast S1024x1
        (multiReduction (F := Ideal) .add [1] S1024 (mulf (logistic z) (logistic z)) 0x00000000#32 reduces_S1024x256_S1024 (.inl rfl) rfl)
        shapeCasts_S1024_S1024x1))
      broadcasts_S1024x1_S1024x256)

theorem tail_apply (z : FVec Ideal S1024x256 .f32) (p : Fin 1024) (q : Fin 256) :
    kernelTail z (ix2 p q)
      = Ideal.logistic (z (ix2 p q)) * Ideal.rsqrt (∑ j : Fin 256, Ideal.logistic (z (ix2 p j)) * Ideal.logistic (z (ix2 p j))) := by
  show (Ideal.logistic (z (ix2 p q)) : EReal) * _ = _
  refine congrArg (fun t => Ideal.logistic (z (ix2 p q)) * t) ?_
  refine (PlainDot.broadcastTo_a1_ab_apply _ broadcasts_S1024x1_S1024x256 p q).trans ?_
  show Ideal.rsqrt _ = _
  refine congrArg Ideal.rsqrt ?_
  refine (PlainDot.shapeCast_a_a1_apply _ shapeCasts_S1024_S1024x1 p (0 : Fin 1)).trans ?_
  exact PlainDot.rowSum_apply _ _ _ _ _ p

theorem epilogue_apply (acc : Vec Ideal S1024x256 .f32) (xm : Vec Ideal S1024x256 .bf16) (w1 w2 : Vec Ideal S256x256 .bf16)
    (p : Fin 1024) (q : Fin 256) :
    k0_pay3 (F := Ideal) acc xm w1 w2 (ix2 p q)
      = Ideal.logistic (blockPre acc xm w1 w2 p q)
          * Ideal.rsqrt (∑ j : Fin 256, Ideal.logistic (blockPre acc xm w1 w2 p j) * Ideal.logistic (blockPre acc xm w1 w2 p j)) := by
  have h : k0_pay3 (F := Ideal) acc xm w1 w2
      = kernelTail (kernelPre acc xm w1 w2) := by
    unfold k0_pay3 kernelTail kernelPre
    simp only [shapeCast_self]
  rw [h, tail_apply]
  simp only [pre_apply]

end Cert.KernelIdeal.Payload

end
-- ==== Proof.KernelIdealAccumulated.lean ====
/-
  The running total along a row tile. After point t the total's entry (p, k) is the part of node (row p of the row
  tile)'s neighbour aggregate at feature k that lies in the first t % 16 + 1 column tiles: the first column tile
  starts from zero, each later one adds its 1024 terms to what the point before left, and the row tile does not
  change between them.
-/
import proofs.«150975_j42219528520315_1_alg».proof.Proof.KernelIdealBlockReads
import proofs.«150975_j42219528520315_1_alg».proof.Proof.KernelIdealCarried
import proofs.«150975_j42219528520315_1_alg».proof.Proof.KernelPayload

set_option maxRecDepth 16384

noncomputable section

open scoped BigOperators

namespace Cert.KernelIdeal.Value

open Cert.KernelIdeal Cert.KernelIdeal.Gen Cert.KernelIdeal.Call
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- At a first column tile the total starts from zero: it is the tile's 1024 terms, the terms of one tile. -/
theorem accAt_apply_first (c : Dev nD) (t : Fin cfg0.N) (h : t.val % 16 = 0) (p : Fin 1024) (k : Fin 256) :
    accAt (F := Ideal) m c t.val t.isLt (ix2 p k)
      = Cert.SageSpec.headSum (fun n => adjs m c (ix2 (rowOf t p) n) * xs m c (ix2 n k)) (t.val % 16 + 1) := by
  rw [accAt_first m c t h, Payload.accumulate_apply, Payload.reset_apply, zero_add]
  rw [h, Cert.SageSpec.headSum_succ _ 0 (by norm_num), Cert.SageSpec.headSum_zero, zero_add]
  apply Finset.sum_congr rfl
  intro kk _
  rw [adjBlk_apply m c t p kk, colBlk_apply m c t kk k]
  have hc : colOf t kk = ⟨0 * 1024 + kk.val, by have := kk.isLt; omega⟩ := by
    apply Fin.ext
    show t.val % 16 * 1024 + kk.val = 0 * 1024 + kk.val
    rw [h]
  rw [hc]

/-- At a later column tile the total is what the point before left, in the same row tile and one column tile
    earlier, plus this tile's 1024 terms. -/
theorem accAt_apply_next (c : Dev nD) (t : Fin cfg0.N) (h : ¬t.val % 16 = 0)
    (ih : ∀ (p : Fin 1024) (k : Fin 256),
      accAt (F := Ideal) m c (t.val - 1) (Nat.lt_of_le_of_lt (Nat.sub_le _ _) t.isLt) (ix2 p k)
        = Cert.SageSpec.headSum
            (fun n => adjs m c (ix2 (rowOf ⟨t.val - 1, Nat.lt_of_le_of_lt (Nat.sub_le _ _) t.isLt⟩ p) n) * xs m c (ix2 n k))
            ((t.val - 1) % 16 + 1))
    (p : Fin 1024) (k : Fin 256) :
    accAt (F := Ideal) m c t.val t.isLt (ix2 p k)
      = Cert.SageSpec.headSum (fun n => adjs m c (ix2 (rowOf t p) n) * xs m c (ix2 n k)) (t.val % 16 + 1) := by
  have hN : t.val < 256 := lt_of_lt_of_eq t.isLt (show cfg0.N = 256 from N_0)
  have hlt : t.val % 16 < 16 := Nat.mod_lt _ (by norm_num)
  have hrow : rowOf ⟨t.val - 1, Nat.lt_of_le_of_lt (Nat.sub_le _ _) t.isLt⟩ p = rowOf t p := by
    apply Fin.ext
    show (t.val - 1) / 16 * 1024 + p.val = t.val / 16 * 1024 + p.val
    have : (t.val - 1) / 16 = t.val / 16 := by omega
    rw [this]
  have hcnt : (t.val - 1) % 16 + 1 = t.val % 16 := by omega
  rw [accAt_next m c t h, Payload.accumulate_apply, ih p k, hrow, hcnt]
  rw [Cert.SageSpec.headSum_succ _ (t.val % 16) hlt]
  congr 1
  apply Finset.sum_congr rfl
  intro kk _
  rw [adjBlk_apply m c t p kk, colBlk_apply m c t kk k]
  rfl

theorem accAt_apply (c : Dev nD) (t : Fin cfg0.N) (p : Fin 1024) (k : Fin 256) :
    accAt (F := Ideal) m c t.val t.isLt (ix2 p k)
      = Cert.SageSpec.headSum (fun n => adjs m c (ix2 (rowOf t p) n) * xs m c (ix2 n k)) (t.val % 16 + 1) := by
  suffices H : ∀ (n : ℕ) (hn : n < cfg0.N) (p : Fin 1024) (k : Fin 256),
      accAt (F := Ideal) m c n hn (ix2 p k)
        = Cert.SageSpec.headSum (fun j => adjs m c (ix2 (rowOf ⟨n, hn⟩ p) j) * xs m c (ix2 j k)) (n % 16 + 1) from
    H t.val t.isLt p k
  intro n
  induction n using Nat.strong_induction_on with
  | _ n ih =>
    intro hn p k
    by_cases h : n % 16 = 0
    · exact accAt_apply_first m c ⟨n, hn⟩ h p k
    · have hpos : n - 1 < n := by omega
      exact accAt_apply_next m c ⟨n, hn⟩ h (fun p' k' => ih (n - 1) hpos _ p' k') p k

end Cert.KernelIdeal.Value

end
-- ==== Proof.KernelIdealResult.lean ====
/-
  The result array. At a last column tile the running total is the whole neighbour aggregate of the row tile's
  nodes, so the block written back there is the layer's result for those 1024 nodes; the sixteen row tiles' blocks
  tile the array, so after the call it holds the layer's result everywhere.
-/
import proofs.«150975_j42219528520315_1_alg».proof.Proof.KernelIdealAccumulated

set_option maxRecDepth 16384

noncomputable section

open scoped BigOperators

namespace Cert.KernelIdeal.Value

open Cert.KernelIdeal Cert.KernelIdeal.Gen Cert.KernelIdeal.Call
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- At a last column tile the running total holds all sixteen tiles' terms, so the block's pre-activation at row p
    is the layer's pre-activation of the node that row stands for. -/
theorem blockPre_last (c : Dev nD) (t : Fin cfg0.N) (h15 : t.val % 16 = 15) (p : Fin 1024) (j : Fin 256) :
    Payload.blockPre (accAt (F := Ideal) m c t.val t.isLt) (rowBlk (F := Ideal) m c t) (selfW (F := Ideal) m c t)
        (neighW (F := Ideal) m c t) p j
      = Cert.SageSpec.pre (xs m c) (adjs m c) (ws m c) (rowOf t p) j := by
  have e16 : t.val % 16 + 1 = 16 := by omega
  unfold Payload.blockPre Cert.SageSpec.pre
  refine congrArg₂ (· + ·) (Finset.sum_congr rfl fun k _ => ?_) (Finset.sum_congr rfl fun k _ => ?_)
  · rw [rowBlk_apply, selfW_apply]
  · rw [accAt_apply, neighW_apply, e16, Cert.SageSpec.headSum_full]
    rfl

/-- The block computed at a last column tile, entry by entry. -/
theorem outAt_apply (c : Dev nD) (t : Fin cfg0.N) (h15 : t.val % 16 = 15) (p : Fin 1024) (q : Fin 256) :
    outAt (F := Ideal) m c t (ix2 p q) = Cert.SageSpec.outAt (xs m c) (adjs m c) (ws m c) (rowOf t p) q := by
  unfold outAt
  rw [Payload.epilogue_apply]
  unfold Cert.SageSpec.outAt Cert.SageSpec.sumsq Cert.SageSpec.act
  refine congrArg₂ (· * ·) (congrArg Ideal.logistic (blockPre_last m c t h15 p q))
    (congrArg Ideal.rsqrt (Finset.sum_congr rfl fun j _ => ?_))
  rw [blockPre_last m c t h15 p j]

/-- The result window's block index at a point, decided over the grid: the point's row tile, and column block 0. -/
theorem out_index : ∀ t : Fin cfg0.N, win0_5.index t (0 : Fin 2) = t.val / 16 ∧ win0_5.index t (1 : Fin 2) = 0 :=
  (by decide +kernel : ∀ t : Fin grid0.N, _)

/-- An array of the result's shape read through the result window's block at a point: entry (p, q) of the block is
    the array's entry at the row tile's p-th node, feature q. -/
theorem out_read (G : Cert.SageSpec.Feat.Idx → EReal) (t : Fin cfg0.N) (p : Fin 1024) (q : Fin 256) :
    (((cfg0.win 5).blk t).view.read (Elt Ideal) G : S1024x256.Idx → EReal) (ix2 p q) = G (ix2 (rowOf t p) q) := by
  obtain ⟨e0, e1⟩ := out_index t
  rw [View.read_apply]
  show G _ = G _
  congr 1
  funext a
  apply Fin.ext
  match a with
  | ⟨0, _⟩ => show win0_5.index t 0 * 1024 + 1 * p.val = t.val / 16 * 1024 + p.val; rw [e0]; omega
  | ⟨1, _⟩ => show win0_5.index t 1 * 256 + 1 * q.val = q.val; rw [e1]; omega

/-- What a last column tile writes back is its row tile's block of the layer's result. -/
theorem flushed_last (c : Dev nD) (t : Fin cfg0.N) (hf : (cfg0.win 5).flush t = true) :
    (dats (F := Ideal) m 0 c).flushed 5 t
      = ((cfg0.win 5).blk t).view.read (Elt Ideal) (Cert.SageSpec.out (xs m c) (adjs m c) (ws m c)) := by
  have h15 : t.val % 16 = 15 := (flush0_5 t).mp hf
  show (cfg0.win 5).cut (grid0.coords t) ((dats (F := Ideal) m 0 c).after 5 t) = _
  rw [after5]
  funext y
  obtain ⟨p, q, rfl⟩ : ∃ (p : Fin 1024) (q : Fin 256), y = ix2 p q := ⟨y 0, y 1, eq_ix2 y⟩
  refine (outAt_apply m c t h15 p q).trans ?_
  refine ((Cert.SageSpec.out_ix2 (xs m c) (adjs m c) (ws m c) (rowOf t p) q).symm.trans ?_)
  exact (out_read (Cert.SageSpec.out (xs m c) (adjs m c) (ws m c)) t p q).symm

/-- An index of the result array is in a point's block iff each coordinate is in the block's range on its axis. -/
theorem mem_out_blk (t : Fin cfg0.N) (i : Cert.SageSpec.Feat.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v5).slice (win0_5.rect t)).set ↔ _
  rw [View.set_slice_whole, Rect.mem_set_unit]
  exact Iff.rfl

/-- Every entry (r, q) of the result array is written back: by the last column tile of row tile r / 1024. -/
theorem out_covered (i : Cert.SageSpec.Feat.Idx) :
    ∃ t : Fin cfg0.N, (cfg0.win 5).flush t = true ∧ i ∈ ((cfg0.win 5).blk t).view.set := by
  have hi0 : (i 0).val < 16384 := (i 0).isLt
  have hi1 : (i 1).val < 256 := (i 1).isLt
  obtain ⟨t, ht⟩ : ∃ t : Fin cfg0.N, t.val = 16 * ((i 0).val / 1024) + 15 :=
    ⟨⟨16 * ((i 0).val / 1024) + 15, lt_of_lt_of_eq (by omega : 16 * ((i 0).val / 1024) + 15 < 256) N_0.symm⟩, rfl⟩
  obtain ⟨e0, e1⟩ := out_index t
  refine ⟨t, (flush0_5 t).mpr (by omega), ?_⟩
  rw [mem_out_blk]
  intro a
  match a with
  | ⟨0, _⟩ =>
    show win0_5.index t 0 * 1024 ≤ (i 0).val ∧ (i 0).val < win0_5.index t 0 * 1024 + 1024
    rw [e0]; omega
  | ⟨1, _⟩ =>
    show win0_5.index t 1 * 256 ≤ (i 1).val ∧ (i 1).val < win0_5.index t 1 * 256 + 256
    rw [e1]; omega

/-- After the call the result array is the layer's result. -/
theorem result_eq (c : Dev nD) :
    (dats (F := Ideal) m 0 c).arrAt 5 cfg0.N = Cert.SageSpec.out (xs m c) (adjs m c) (ws m c) := by
  exact (dats (F := Ideal) m 0 c).arrAt_eq_of_cover 5 (Cert.SageSpec.out (xs m c) (adjs m c) (ws m c))
    (flushed_last m c) out_covered

end Cert.KernelIdeal.Value

end
-- ==== Proof.RefRead.lean ====
/-
  The reference program's run and its stages read one operation at a time: the modules this certificate's
  reference side is built over, gathered under one import.
-/
import proofs.«150975_j42219528520315_1_alg».proof.Proof.Gen.ReferenceIdeal.Read
-- ==== Proof.RefValue.lean ====
/-
  The reference computes adj @ x, joins it to x along the feature axis, contracts the joined row with w, applies
  1 / (1 + exp (-z)), and divides each row by the square root of the sum of its squares. Entry by entry this is the
  layer of SageSpec: the joined contraction is the self half plus the neighbour half, 1 / (1 + exp (-z)) is the
  logistic function, and with real entries dividing by the square root is scaling by the reciprocal square root.
-/
import proofs.«150975_j42219528520315_1_alg».proof.Proof.RefRead
import proofs.«150975_j42219528520315_1_alg».proof.Proof.SageSpec

noncomputable section

namespace Cert.RefValue

open Cert.ReferenceIdeal Cert.ReferenceIdeal.Gen Idealize.ShloMosaic Idealize.ShloMosaic.ValueIdx Cert.SageSpec

/-- The word 0x3F800000 denotes the real number one. -/
theorem ofBits_one : Ideal.ofBits .f32 0x3F800000#32 = 1 := by
  simp [Ideal.ofBits, Ideal.ieee, -EReal.coe_mul]; norm_num

section Stages
variable (x : FVec Ideal S16384x256 .f32) (adj : FVec Ideal S16384x16384 .f32) (w : FVec Ideal S512x256 .f32)

/-- The joined row at a column of its first half is the node's own feature. -/
theorem join_self (i : Fin 16384) (k : Fin 256) :
    Read.val_main_v1 (F := Ideal) x adj (ix2 i (selfRow k)) = x (ix2 i k) := by
  unfold Read.val_main_v1
  exact concatenate_pair_apply_left (1 : Fin S16384x512.rank) x (Read.val_main_v0 (F := Ideal) x adj)
    concatenates_S16384x256_S16384x256_S16384x512_d1 (ix2 i (selfRow k)) rfl (ix2 i k)
    (fun b => by match b with | ⟨0, _⟩ => rfl | ⟨1, _⟩ => rfl)

/-- The joined row at a column of its second half is the first contraction's entry. -/
theorem join_neigh (i : Fin 16384) (k : Fin 256) :
    Read.val_main_v1 (F := Ideal) x adj (ix2 i (neighRow k)) = Read.val_main_v0 (F := Ideal) x adj (ix2 i k) := by
  unfold Read.val_main_v1
  exact concatenate_pair_apply_right (1 : Fin S16384x512.rank) x (Read.val_main_v0 (F := Ideal) x adj)
    concatenates_S16384x256_S16384x256_S16384x512_d1 (ix2 i (neighRow k)) rfl rfl (ix2 i k)
    (fun b hb => by match b with | ⟨0, _⟩ => rfl | ⟨1, _⟩ => exact absurd rfl hb)
    (by show k.val + 256 = 256 + k.val; omega)

/-- The first contraction is the neighbour aggregate. -/
theorem v0_eq (i : Fin 16384) (k : Fin 256) :
    Read.val_main_v0 (F := Ideal) x adj (ix2 i k) = neigh x adj i k := by
  rw [Read.val_main_v0_apply]
  unfold neigh
  refine Finset.sum_congr rfl fun n _ => ?_
  have e1 : Read.lidx_main_v0 (ix2 i k) n = ix2 i n :=
    funext fun a => Fin.ext (by match a with | ⟨0, _⟩ => rfl | ⟨1, _⟩ => rfl)
  have e2 : Read.ridx_main_v0 (ix2 i k) n = ix2 n k :=
    funext fun a => Fin.ext (by match a with | ⟨0, _⟩ => rfl | ⟨1, _⟩ => rfl)
  rw [e1, e2]

/-- The contraction of the joined row with w is the pre-activation: its self half plus its neighbour half. -/
theorem v2_eq (i : Fin 16384) (j : Fin 256) :
    Read.val_main_v2 (F := Ideal) x adj w (ix2 i j) = pre x adj w i j := by
  rw [Read.val_main_v2_apply]
  refine (sum_halves _).trans ?_
  unfold pre
  beta_reduce
  refine congrArg₂ (· + ·) ?_ ?_
  · refine Finset.sum_congr rfl fun k _ => ?_
    have e1 : Read.lidx_main_v2 (ix2 i j) (selfRow k) = ix2 i (selfRow k) :=
      funext fun a => Fin.ext (by match a with | ⟨0, _⟩ => rfl | ⟨1, _⟩ => rfl)
    have e2 : Read.ridx_main_v2 (ix2 i j) (selfRow k) = ix2 (selfRow k) j :=
      funext fun a => Fin.ext (by match a with | ⟨0, _⟩ => rfl | ⟨1, _⟩ => rfl)
    rw [e1, e2, join_self]
  · refine Finset.sum_congr rfl fun k _ => ?_
    have e1 : Read.lidx_main_v2 (ix2 i j) (neighRow k) = ix2 i (neighRow k) :=
      funext fun a => Fin.ext (by match a with | ⟨0, _⟩ => rfl | ⟨1, _⟩ => rfl)
    have e2 : Read.ridx_main_v2 (ix2 i j) (neighRow k) = ix2 (neighRow k) j :=
      funext fun a => Fin.ext (by match a with | ⟨0, _⟩ => rfl | ⟨1, _⟩ => rfl)
    rw [e1, e2, join_neigh, v0_eq]

/-- One over one plus the exponential of the negated pre-activation is the activation. -/
theorem v8_eq (i : Fin 16384) (j : Fin 256) :
    Read.val_main_v8 (F := Ideal) x adj w (ix2 i j) = act x adj w i j := by
  rw [Read.val_main_v8_apply, Read.val_main_v7_apply, Read.val_main_cst_0_apply, Read.val_main_v6_apply,
    Read.val_main_v5_apply, Read.val_main_cst_apply, Read.val_main_v4_apply, Read.val_main_v3_apply, v2_eq]
  simp only [Ideal.ofBits_def, Ideal.hostDivf_def, Ideal.addf_def, Ideal.hostUnary_exp_def, Ideal.hostNegf_def,
    Ideal.negf_def, ofBits_one]
  rfl

/-- The broadcast square root of the row sum of squares is the square root of the row's squared length. -/
theorem v10_eq (i : Fin 16384) (j : Fin 256) :
    Read.val_main_v10 (F := Ideal) x adj w (ix2 i j) = Ideal.sqrt (sumsq x adj w i) := by
  rw [Read.val_main_v10_apply, Read.val_main_v9_apply, Read.val_main_call0_v2_apply, Read.val_main_call0_v1_apply,
    Read.val_main_call0_cst_apply]
  simp only [Ideal.ofBits_def, Ideal.hostUnary_sqrt_def, Ideal.ofBits_zero_f32, zero_add]
  unfold sumsq
  refine congrArg Ideal.sqrt (Finset.sum_congr rfl fun k _ => ?_)
  have e : Read.idx_main_call0_v1 (Read.idx_main_call0_v2 (Read.idx_main_v10 (ix2 i j))) k = ix2 i k :=
    funext fun a => Fin.ext (by match a with | ⟨0, _⟩ => rfl | ⟨1, _⟩ => rfl)
  rw [e, Read.val_main_call0_v0_apply, v8_eq, Ideal.mulf_def]

end Stages

/-- With real entries, the reference's result array is the layer's. -/
theorem reference_eq (x : FVec Ideal S16384x256 .f32) (adj : FVec Ideal S16384x16384 .f32) (w : FVec Ideal S512x256 .f32)
    (hx : ∀ y, IsReal (x y)) (ha : ∀ y, IsReal (adj y)) (hw : ∀ y, IsReal (w y)) :
    Cert.ReferenceIdeal.Read.val_main_v11 (F := Ideal) x adj w = Cert.SageSpec.out x adj w := by
  funext y
  obtain ⟨i, j, rfl⟩ : ∃ (i : Fin 16384) (j : Fin 256), y = ix2 i j := ⟨y 0, y 1, eq_ix2 y⟩
  rw [Read.val_main_v11_apply, v8_eq, v10_eq, Ideal.hostDivf_def, out_ix2]
  exact div_sqrt_eq_mul_rsqrt (fun j' => pre x adj w i j') (fun j' => pre_isReal x adj w hx ha hw i j') j

end Cert.RefValue

end
-- ==== Proof.FiniteInputs.lean ====
/-
  The precondition says that the absolute value of every entry of each of the three arrays is below +infinity.
  An extended real whose absolute value is below +infinity is a real number; so under the precondition every entry
  of x, adj and w is a real number.
-/
import proofs.«150975_j42219528520315_1_alg».proof.Pre_finite_inputs
import proofs.«150975_j42219528520315_1_alg».proof.Proof.Gen.Pre_finite_inputs
import proofs.«150975_j42219528520315_1_alg».proof.Proof.SageSpec
import Idealize.ShloMosaic.Lib.ReduceAll
import Idealize.ShloMosaic.PureOps.Ideal.Laws

noncomputable section

namespace Cert.FiniteInputs

open Idealize.ShloMosaic Cert.Pre_finite_inputs Cert.SageSpec

/-- The shape of rank zero has exactly one index. -/
instance : Subsingleton S_.Idx := ⟨fun a b => funext fun d => d.elim0⟩

/-- A truth value printed as a one-bit word is the word one exactly when it is true. -/
theorem ofBool_eq_one (b : Bool) : BitVec.ofBool b = 1#1 ↔ b = true := by cases b <;> decide

/-- The word 0x7F800000 denotes +infinity. -/
theorem ofBits_inf : Ideal.ofBits .f32 0x7F800000#32 = ⊤ := by
  simp [Ideal.ofBits, Ideal.ieee]

/-- An extended real whose absolute value max e (-e) is below +infinity is a real number:
    the absolute value of either infinity is +infinity. -/
theorem isReal_of_abs_lt_top (e : EReal) (h : max e (-e) < ⊤) : IsReal e := by
  induction e using EReal.rec with
  | bot => simp at h
  | coe r => exact ⟨r, rfl⟩
  | top => simp at h

/-- One entry of the comparison |v| < broadcast(+infinity) being one says that the entry of v is real. -/
theorem isReal_of_cmp {s : Shape} (hb : S_.BroadcastsInDim s (![] : Fin 0 → Fin s.rank)) (v : FVec Ideal s .f32) (i : s.Idx)
    (h : cmpf .olt (Host.absf v) (broadcastInDim s ![] hb (constant S_ .f32 0x7F800000#32)) i = 1#1) :
    IsReal (v i) := by
  apply isReal_of_abs_lt_top
  have h' : BitVec.ofBool (decide (max (v i) (-(v i)) < Ideal.ofBits .f32 0x7F800000#32)) = 1#1 := h
  rw [ofBits_inf] at h'
  exact of_decide_eq_true ((ofBool_eq_one _).1 h')

/-- Under the precondition every entry of the three arrays is a real number. -/
theorem reals_of_pre (x : FVec Ideal S16384x256 .f32) (adj : FVec Ideal S16384x16384 .f32) (w : FVec Ideal S512x256 .f32)
    (h : Cert.Pre_finite_inputs.fn (F := Ideal) x adj w = fun _ => 1#1) :
    (∀ y, IsReal (x y)) ∧ (∀ y, IsReal (adj y)) ∧ (∀ y, IsReal (w y)) := by
  have h0 := congrFun h ValueIdx.ix0
  dsimp only [Cert.Pre_finite_inputs.fn, andi] at h0
  obtain ⟨h12, h3⟩ := IntOp.andi_eq_one.1 h0
  obtain ⟨h1, h2⟩ := IntOp.andi_eq_one.1 h12
  refine ⟨fun y => ?_, fun y => ?_, fun y => ?_⟩
  · exact isReal_of_cmp _ x y (Host.reduce_andi_all _ _ _ _ _ h1 y)
  · exact isReal_of_cmp _ adj y (Host.reduce_andi_all _ _ _ _ _ h2 y)
  · exact isReal_of_cmp _ w y (Host.reduce_andi_all _ _ _ _ _ h3 y)

end Cert.FiniteInputs

end
-- ==== Proof.lean ====
/-
  A graph layer on 16384 nodes: the kernel against its reference, over the extended reals.

  Both programs compute, for node features x, edge weights adj and a weight matrix w,
      out (i, j) = act i j scaled to a unit-length row,   act = logistic (x w_self + (adj x) w_neigh).
  The kernel takes adj x one [1024, 1024] tile at a time into a running total (sixteen column tiles per row tile,
  reset at the first, used at the last), contracts the row's own features and the total with the two halves of w,
  and scales by the reciprocal square root of the row's squared length. The reference contracts the joined row
  [x | adj x] with the whole of w and divides by the square root. The two agree entry by entry: a total taken tile by
  tile is the whole sum, a 512-term contraction is the sum of its two halves, the logistic function is 1 / (1 + exp (-z))
  by definition, and where every input is finite every activation is a positive real, so dividing by the square root
  of the squared length is multiplying by its reciprocal square root. The last step is the only one that needs the
  inputs finite: with infinite inputs a row of activations can vanish, and the two ways of scaling it then differ.

  The kernel's frame (it terminates, faults nowhere, leaves its arguments unchanged) is proved once for any number
  format from the launch of its one pipelined call: two of the call's windows read the same array, which is held half
  by each. The reference's frame is its run. Nothing was rewritten when the kernel was idealized.
-/
import proofs.«150975_j42219528520315_1_alg».proof.Defs
import proofs.«150975_j42219528520315_1_alg».proof.Proof.Gen.Kernel
import proofs.«150975_j42219528520315_1_alg».proof.Proof.Gen.KernelIdeal
import proofs.«150975_j42219528520315_1_alg».proof.Proof.Gen.ReferenceIdeal
import proofs.«150975_j42219528520315_1_alg».proof.Proof.Gen.Pre_finite_inputs
import proofs.«150975_j42219528520315_1_alg».proof.Proof.KernelCallRun
import proofs.«150975_j42219528520315_1_alg».proof.Proof.KernelIdealCallRun
import proofs.«150975_j42219528520315_1_alg».proof.Proof.KernelIdealResult
import proofs.«150975_j42219528520315_1_alg».proof.Proof.RefValue
import proofs.«150975_j42219528520315_1_alg».proof.Proof.FiniteInputs

noncomputable section

namespace Cert.Proof

open Idealize.ShloMosaic Idealize.ShloMosaic.TcCoe Idealize.SL.Sem

theorem frame_kernel : Cert.frame_Kernel := fun m ρ _ => Cert.Kernel.Call.frame (F := Bits) m ρ

theorem frame_kernelIdeal : Cert.frame_KernelIdeal := fun m ρ _ => Cert.KernelIdeal.Call.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arrays, under finite inputs, both programs end with the layer's result. -/
theorem algebraic : Cert.algebraic_KernelIdeal_ReferenceIdeal := by
  intro m ρ m' ρ' hpre hagree
  refine ⟨fun c => Cert.SageSpec.out (Cert.KernelIdeal.Value.xs m c) (Cert.KernelIdeal.Value.adjs m c) (Cert.KernelIdeal.Value.ws m c), ?_, ?_⟩
  · exact (θ_run Cert.KernelIdeal.defs _ _).mono
      (fun _ h c => ⟨(h c).1.trans (Cert.KernelIdeal.Value.result_eq m c), (h c).2⟩)
      (Cert.KernelIdeal.Call.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, (hagree c).1, (hagree c).2.1, (hagree c).2.2]
    obtain ⟨hx, ha, hw⟩ := Cert.FiniteInputs.reals_of_pre _ _ _ (hpre c)
    exact Cert.RefValue.reference_eq _ _ _ hx ha hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
